-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S16x8 .f32) (main_arg5 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg4
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x8 .f32) (main_arg5 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x16 : Shape := ⟨2, ![1, 16]⟩
abbrev S1x8 : Shape := ⟨2, ![1, 8]⟩
abbrev S10000x8 : Shape := ⟨2, ![10000, 8]⟩
abbrev S400x10000 : Shape := ⟨2, ![400, 10000]⟩
abbrev S10000x16 : Shape := ⟨2, ![10000, 16]⟩
abbrev S400x16 : Shape := ⟨2, ![400, 16]⟩
abbrev S400x8 : Shape := ⟨2, ![400, 8]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x16, .f32⟩
  | .hbm, ⟨7, _⟩ => ⟨S1x8, .f32⟩
  | .hbm, ⟨8, _⟩ => ⟨S10000x8, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x16, .f32⟩
  | .local _ .vmem, ⟨4, _⟩ => ⟨S1x16, .f32⟩
  | .local _ .vmem, ⟨5, _⟩ => ⟨S16x8, .f32⟩
  | .local _ .vmem, ⟨6, _⟩ => ⟨S1x8, .f32⟩
  | .local _ .vmem, ⟨7, _⟩ => ⟨S10000x8, .f32⟩
  | .local _ .vmem, ⟨8, _⟩ => ⟨S10000x16, .bf16⟩
  | .local _ .vmem, ⟨9, _⟩ => ⟨S10000x8, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32_2 : BitVec 32 := 25#32
  let v6 : BitVec 1 := Scalar.cmpi .slt arg0 c25_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v23 : BitVec 32 := Scalar.muli v0 c400_i32
  let v24 : Index := Scalar.indexCast v23
  let c0_14 : Index := 0#32
  ![v24.toNat, 0]
def k0_cond3 (i : grid0.Coords) : BitVec 1 :=
  let arg0 : BitVec 32 := BitVec.ofNat 32 (i 0).val
  let c25_i32_4 : BitVec 32 := 25#32
  let v9 : BitVec 1 := Scalar.cmpi .sge arg0 c25_i32_4
  let v10 : BitVec 32 := Scalar.extui v9
  let c0_i32_5 : BitVec 32 := 0#32
  let v11 : BitVec 1 := Scalar.cmpi .ne v10 c0_i32_5
  v11

def k0_off2 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v18 : BitVec 32 := Scalar.muli v0 c400_i32
  let v19 : Index := Scalar.indexCast v18
  let c0_10 : Index := 0#32
  ![v19.toNat, 0]
def cc0_transform_0 (i : grid0.Coords) : Fin 2 → Nat :=
  let arg0 : BitVec 32 := BitVec.ofNat 32 (i 0).val
  let c25_i32 : BitVec 32 := 25#32
  let v0 : BitVec 32 := Scalar.remsi arg0 c25_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10000x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S16_S1x16 : S16.ShapeCasts S1x16
  shapeCasts_S8_S1x8 : S8.ShapeCasts S1x8
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  packedbf16_S10000x16_S10000x16_0_0 : (Rect.unit (s := S10000x16) ![0, 0] S10000x16.size inb_S10000x16_S10000x16_0_0).PackedRows (EltTy.packing .bf16)
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x8_S16x8_0_0 : ∀ a, (![0, 0] : Fin 2 → Nat) a + S16x8.size a ≤ S16x8.size a
  h_S16x8 : 0 < S16x8.numel
  h_S400x8 : 0 < S400x8.numel
  shapeCasts_S400x8_S400x8 : S400x8.ShapeCasts S400x8
  inb_S10000x8_S10000x8_0_0 : ∀ a, (![0, 0] : Fin 2 → Nat) a + S10000x8.size a ≤ S10000x8.size a
  h_S10000x8 : 0 < S10000x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S400x8 : S1x8.Broadcasts S400x8
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x8_S400x8_1_0_0_1_n_n_wf : DotDims.WF S400x16 S16x8 S400x8 [1] [0] [0] [1] [] []
  dot_S400x10000_S10000x8_S400x8_1_0_0_1_n_n_wf : DotDims.WF S400x10000 S10000x8 S400x8 [1] [0] [0] [1] [] []
  hrank0 : 0 < grid0.rank
  k0_off1_inb : ∀ i : grid0.Coords, ∀ (k0_h2 : k0_cond2 i = 1#1), ∀ a, (k0_off1 i) a + S400x8.size a ≤ S10000x8.size a
  k0_off1_packedbf16 : ∀ i : grid0.Coords, ∀ (k0_h2 : k0_cond2 i = 1#1), (Rect.unit (s := S10000x8) (k0_off1 i) S400x8.size (k0_off1_inb i k0_h2)).PackedRows (EltTy.packing .bf16)
  k0_off2_inb : ∀ i : grid0.Coords, ∀ (k0_h3 : k0_cond3 i = 1#1), ∀ a, (k0_off2 i) a + S400x8.size a ≤ S10000x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x8.size a ≤ S16x8.size a
  hwx0_4 : ∀ i : grid0.Coords, EltTy.bits .f32 = 32 ∨ (Rect.block (s := S16x8) S16x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10000x8.size a ≤ S10000x8.size a
  hwx0_6 : ∀ i : grid0.Coords, EltTy.bits .f32 = 32 ∨ (Rect.block (s := S10000x8) S10000x8.size (cc0_transform_6 i) (hinb0_6 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x8_S400x8_1_0_0_1_n_n : DotDims S400x16 S16x8 S400x8 where
  lhsContracting := [1]
  rhsContracting := [0]
  lhsNonContracting := [0]
  rhsNonContracting := [1]
  lhsBatch := []
  rhsBatch := []
  wf := dot_S400x16_S16x8_S400x8_1_0_0_1_n_n_wf
def dot_S400x10000_S10000x8_S400x8_1_0_0_1_n_n : DotDims S400x10000 S10000x8 S400x8 where
  lhsContracting := [1]
  rhsContracting := [0]
  lhsNonContracting := [0]
  rhsNonContracting := [1]
  lhsBatch := []
  rhsBatch := []
  wf := dot_S400x10000_S10000x8_S400x8_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S10000x8.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S10000x16 : Shape := ⟨2, ![10000, 16]⟩
abbrev S1x16 : Shape := ⟨2, ![1, 16]⟩
abbrev S_ : Shape := ⟨0, ![]⟩
abbrev S10000x8 : Shape := ⟨2, ![10000, 8]⟩
abbrev S1x8 : Shape := ⟨2, ![1, 8]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x8, .f32⟩
  | .hbm, ⟨15, _⟩ => ⟨S10000x8, .f32⟩
  | .hbm, ⟨16, _⟩ => ⟨S1x8, .f32⟩
  | .hbm, ⟨17, _⟩ => ⟨S10000x8, .f32⟩
  | .hbm, ⟨18, _⟩ => ⟨S10000x8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x8_S10000x8_1_0_0_1_n_n_wf : DotDims.WF S10000x16 S16x8 S10000x8 [1] [0] [0] [1] [] []
  dot_S10000x10000_S10000x8_S10000x8_1_0_0_1_n_n_wf : DotDims.WF S10000x10000 S10000x8 S10000x8 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x10000_S10000x8_S10000x8_1_0_0_1_n_n : DotDims S10000x10000 S10000x8 S10000x8 where
  lhsContracting := [1]
  rhsContracting := [0]
  lhsNonContracting := [0]
  rhsNonContracting := [1]
  lhsBatch := []
  rhsBatch := []
  wf := dot_S10000x10000_S10000x8_S10000x8_1_0_0_1_n_n_wf

class Facts : Prop extends Facts₀ where

variable [Facts]
-- ==== Proof.Bits.Cases.lean ====
/- The grid of the fused two-layer graph convolution has 50 points: point 0 also forms the first
   layer's support x·W1; points 0..24 (the first pass) each turn one 400-row panel of the adjacency
   matrix into 400 rows of the second layer's support; points 25..49 (the second pass) each turn
   one panel into 400 rows of the result. Here the three branch conditions of the body and the row
   offsets of its two panel stores are put in closed form over the grid. -/
import proofs.«170562_g43207370998079_cont_8to1_b_1494_6_alg».proof.Proof.Gen.Kernel.Launch
import proofs.«170562_g43207370998079_cont_8to1_b_1494_6_alg».proof.Proof.Gen.Kernel.Skeleton
import proofs.«170562_g43207370998079_cont_8to1_b_1494_6_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The body's first branch: the grid coordinate is zero. -/
abbrev atFirst (i : grid0.Coords) : Prop := (Scalar.cmpi .ne (Scalar.extui (Scalar.cmpi .eq (BitVec.ofNat 32 (i 0).val) 0#32)) 0#32) = 1#1
/-- The body's second branch: the coordinate is below 25 (first pass). -/
abbrev inPass1 (i : grid0.Coords) : Prop := k0_cond2 i = 1#1
/-- The body's third branch: the coordinate is at least 25 (second pass). -/
abbrev inPass2 (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem inPass1_iff : ∀ t : Fin cfg0.N, inPass1 (grid0.coords t) ↔ t.val < 25 :=
  (by decide +kernel : ∀ t : Fin grid0.N, inPass1 (grid0.coords t) ↔ t.val < 25)
theorem inPass2_iff : ∀ t : Fin cfg0.N, inPass2 (grid0.coords t) ↔ 25 ≤ t.val :=
  (by decide +kernel : ∀ t : Fin grid0.N, inPass2 (grid0.coords t) ↔ 25 ≤ t.val)

/-- The panel a point works on: its coordinate modulo 25. -/
def panelOf (t : Fin cfg0.N) : Nat := t.val % 25

/-- The first-pass store goes to rows 400·(t mod 25) onward, all columns. -/
theorem off1_eq : ∀ t : Fin cfg0.N, k0_off1 (grid0.coords t) = ![400 * (t.val % 25), 0] :=
  (by decide +kernel : ∀ t : Fin grid0.N, k0_off1 (grid0.coords t) = ![400 * (t.val % 25), 0])
/-- The second-pass store goes to rows 400·(t mod 25) onward, all columns. -/
theorem off2_eq : ∀ t : Fin cfg0.N, k0_off2 (grid0.coords t) = ![400 * (t.val % 25), 0] :=
  (by decide +kernel : ∀ t : Fin grid0.N, k0_off2 (grid0.coords t) = ![400 * (t.val % 25), 0])

/-- The grid has 50 points. -/
theorem N50 : cfg0.N = 50 := N_0

end Cert.Kernel.Hand

end
-- ==== Proof.Bits.RunFirst.lean ====
/- The body at the grid's first point. It stores the first layer's support x·W1 into the whole of the
   first scratch buffer, reads it back, and stores 400 rows of the second layer's support into the
   second scratch buffer; the result's staging buffer is not touched. -/
import proofs.«170562_g43207370998079_cont_8to1_b_1494_6_alg».proof.Proof.Bits.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The first point's run on any whole memrefs: inputs at their contents, the result's buffer at `y6`
    and handed back at `y6`, the first scratch at anything and handed back with the pieces `LS0`
    written, the second scratch at `xs1` and handed back with the pieces `LS1` written over `xs1`. -/
noncomputable def firstRun (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs1 : Vec F S10000x8 .bf16) :
    (LS0 : List (View.Piece (Elt F) S10000x16 .bf16)) ×' { LS1 : List (View.Piece (Elt F) S10000x8 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexact HS1

end Cert.Kernel.Hand

end
-- ==== Proof.Bits.RunPass1.lean ====
/- The body at a first-pass point after the first (points 1..24): it reads the first support from the
   first scratch buffer and stores 400 rows of the second support into the second scratch buffer,
   over whatever that buffer held; nothing else changes. -/
import proofs.«170562_g43207370998079_cont_8to1_b_1494_6_alg».proof.Proof.Bits.RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
noncomputable def pass1Run (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) :
    { LS : List (View.Piece (Elt F) S10000x8 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare xs0 ∗ (arg9.view.loc (c : Thread nD τ) ↦[arg9.view.set]{fullShare} arg9.view.writes (Elt F) (harg9.unread xs1) LS)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexact HS1

end Cert.Kernel.Hand

end
-- ==== Proof.Bits.RunPass2.lean ====
/- The body at a second-pass point (points 25..49): it reads the whole second support from the second
   scratch buffer and stores 400 rows of the result into the result's staging buffer, over whatever
   that buffer held; nothing else changes. -/
import proofs.«170562_g43207370998079_cont_8to1_b_1494_6_alg».proof.Proof.Bits.RunPass1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
noncomputable def pass2Run (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : ¬inPass1 i) (hc2 : inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) :
    { LS : List (View.Piece (Elt F) S10000x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread y6) LS) ∗ owns (c : Thread nD τ) arg8 fullShare xs0 ∗ owns (c : Thread nD τ) arg9 fullShare xs1) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [HS0]
    · iexists _; isplitr; · ipureintro; exact harg8.read_unread _
      iexact HS0
    iexists _; isplitr; · ipureintro; exact harg9.read_unread _
    iexact HS1

end Cert.Kernel.Hand

end
-- ==== Proof.Bits.Pieces.lean ====
/- What each run's stores leave, read back at an index. A store of 400 whole rows at row offset o,
   read at row r: inside [o, o + 400) it is the stored value at row r - o; outside, the buffer's
   earlier contents. The whole-buffer store of the first point reads back as the stored value. -/
import proofs.«170562_g43207370998079_cont_8to1_b_1494_6_alg».proof.Proof.Bits.RunPass2
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-! ## A first-pass point after the first -/

theorem pass1_in (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) (o : ℕ) (ho : k0_off1 i = ![o, 0]) (j : S10000x8.Idx) (y : S400x8.Idx)
    (h0 : (j 0).val = o + (y 0).val) (h1 : (j 1).val = (y 1).val) :
    arg9.view.read (Elt F) (arg9.view.writes (Elt F) (harg9.unread xs1) (pass1Run c i arg1 harg1 arg2 harg2 arg3 harg3 arg4 harg4 arg5 harg5 arg6 harg6 arg7 harg7 arg8 harg8 arg9 harg9 hc0 hc1 hc2 x0 x1 x2 x3 x4 x5 y6 xs0 xs1).1) j
      = k0_pay3 x0 xs0 x3 x4 y := by
  unfold pass1Run; dsimp only
  simp only [View.readAt_eq_ld, Memref.IsWhole.read_unread, View.ld_unit_zero (S := S400x10000) hz2, View.ld_unit_zero (S := S10000x16) hz2, View.ld_unit_zero (S := S1x16) hz2, View.ld_unit_zero (S := S16x8) hz2, View.ld_unit_zero (S := S10000x8) hz2, View.ld_unit_zero (S := S1x8) hz2, View.ld_unit_zero (S := S10000x128) hz2, View.ld_unit_zero (S := S128x16) hz2]
  exact View.read_writes_cons_rows_of_mem arg9.view _ _ _ [] j y ho h0 h1

theorem pass1_out (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) (o : ℕ) (ho : k0_off1 i = ![o, 0]) (j : S10000x8.Idx)
    (h : (j 0).val < o ∨ o + 400 ≤ (j 0).val) :
    arg9.view.read (Elt F) (arg9.view.writes (Elt F) (harg9.unread xs1) (pass1Run c i arg1 harg1 arg2 harg2 arg3 harg3 arg4 harg4 arg5 harg5 arg6 harg6 arg7 harg7 arg8 harg8 arg9 harg9 hc0 hc1 hc2 x0 x1 x2 x3 x4 x5 y6 xs0 xs1).1) j = xs1 j := by
  unfold pass1Run; dsimp only
  refine (View.read_writes_cons_rows_of_not_mem arg9.view _ _ _ [] j ho rfl h).trans ?_
  rw [View.writes_nil, harg9.read_unread]

/-! ## A second-pass point -/

theorem pass2_in (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : ¬inPass1 i) (hc2 : inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) (o : ℕ) (ho : k0_off2 i = ![o, 0]) (j : S10000x8.Idx) (y : S400x8.Idx)
    (h0 : (j 0).val = o + (y 0).val) (h1 : (j 1).val = (y 1).val) :
    arg7.view.read (Elt F) (arg7.view.writes (Elt F) (harg7.unread y6) (pass2Run c i arg1 harg1 arg2 harg2 arg3 harg3 arg4 harg4 arg5 harg5 arg6 harg6 arg7 harg7 arg8 harg8 arg9 harg9 hc0 hc1 hc2 x0 x1 x2 x3 x4 x5 y6 xs0 xs1).1) j
      = k0_pay4 x0 xs1 x5 y := by
  unfold pass2Run; dsimp only
  simp only [View.readAt_eq_ld, Memref.IsWhole.read_unread, View.ld_unit_zero (S := S400x10000) hz2, View.ld_unit_zero (S := S10000x16) hz2, View.ld_unit_zero (S := S1x16) hz2, View.ld_unit_zero (S := S16x8) hz2, View.ld_unit_zero (S := S10000x8) hz2, View.ld_unit_zero (S := S1x8) hz2, View.ld_unit_zero (S := S10000x128) hz2, View.ld_unit_zero (S := S128x16) hz2]
  exact View.read_writes_cons_rows_of_mem arg7.view _ _ _ [] j y ho h0 h1

theorem pass2_out (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : ¬inPass1 i) (hc2 : inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) (o : ℕ) (ho : k0_off2 i = ![o, 0]) (j : S10000x8.Idx)
    (h : (j 0).val < o ∨ o + 400 ≤ (j 0).val) :
    arg7.view.read (Elt F) (arg7.view.writes (Elt F) (harg7.unread y6) (pass2Run c i arg1 harg1 arg2 harg2 arg3 harg3 arg4 harg4 arg5 harg5 arg6 harg6 arg7 harg7 arg8 harg8 arg9 harg9 hc0 hc1 hc2 x0 x1 x2 x3 x4 x5 y6 xs0 xs1).1) j = y6 j := by
  unfold pass2Run; dsimp only
  refine (View.read_writes_cons_rows_of_not_mem arg7.view _ _ _ [] j ho rfl h).trans ?_
  rw [View.writes_nil, harg7.read_unread]

/-! ## The first point -/

theorem first_support1 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs1 : Vec F S10000x8 .bf16) (f : arg8.view.ty.Contents (Elt F)) :
    arg8.view.read (Elt F) (arg8.view.writes (Elt F) f (firstRun c i arg1 harg1 arg2 harg2 arg3 harg3 arg4 harg4 arg5 harg5 arg6 harg6 arg7 harg7 arg8 harg8 arg9 harg9 hc0 hc1 hc2 x0 x1 x2 x3 x4 x5 y6 xs1).1) = k0_pay2 x1 x2 := by
  funext j
  unfold firstRun; dsimp only
  sl_unfold_words
  simp only [View.readAt_eq_ld, Memref.IsWhole.read_unread, View.ld_unit_zero (S := S400x10000) hz2, View.ld_unit_zero (S := S10000x16) hz2, View.ld_unit_zero (S := S1x16) hz2, View.ld_unit_zero (S := S16x8) hz2, View.ld_unit_zero (S := S10000x8) hz2, View.ld_unit_zero (S := S1x8) hz2, View.ld_unit_zero (S := S10000x128) hz2, View.ld_unit_zero (S := S128x16) hz2]
  exact View.read_writes_cons_rows_of_mem arg8.view _ _ _ [] j j rfl (by omega) rfl

theorem first_in (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs1 : Vec F S10000x8 .bf16) (o : ℕ) (ho : k0_off1 i = ![o, 0]) (j : S10000x8.Idx) (y : S400x8.Idx)
    (h0 : (j 0).val = o + (y 0).val) (h1 : (j 1).val = (y 1).val) :
    arg9.view.read (Elt F) (arg9.view.writes (Elt F) (harg9.unread xs1) (firstRun c i arg1 harg1 arg2 harg2 arg3 harg3 arg4 harg4 arg5 harg5 arg6 harg6 arg7 harg7 arg8 harg8 arg9 harg9 hc0 hc1 hc2 x0 x1 x2 x3 x4 x5 y6 xs1).2.1) j
      = k0_pay3 x0 (k0_pay2 x1 x2) x3 x4 y := by
  unfold firstRun; dsimp only
  sl_unfold_words
  simp only [View.readAt_eq_ld, Memref.IsWhole.read_unread, View.ld_unit_zero (S := S400x10000) hz2, View.ld_unit_zero (S := S10000x16) hz2, View.ld_unit_zero (S := S1x16) hz2, View.ld_unit_zero (S := S16x8) hz2, View.ld_unit_zero (S := S10000x8) hz2, View.ld_unit_zero (S := S1x8) hz2, View.ld_unit_zero (S := S10000x128) hz2, View.ld_unit_zero (S := S128x16) hz2]
  rw [View.readCov_unit_zero (S := S10000x16) _ hz2]
  exact View.read_writes_cons_rows_of_mem arg9.view _ _ _ [] j y ho h0 h1

theorem first_out (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs1 : Vec F S10000x8 .bf16) (o : ℕ) (ho : k0_off1 i = ![o, 0]) (j : S10000x8.Idx)
    (h : (j 0).val < o ∨ o + 400 ≤ (j 0).val) :
    arg9.view.read (Elt F) (arg9.view.writes (Elt F) (harg9.unread xs1) (firstRun c i arg1 harg1 arg2 harg2 arg3 harg3 arg4 harg4 arg5 harg5 arg6 harg6 arg7 harg7 arg8 harg8 arg9 harg9 hc0 hc1 hc2 x0 x1 x2 x3 x4 x5 y6 xs1).2.1) j = xs1 j := by
  unfold firstRun; dsimp only
  refine (View.read_writes_cons_rows_of_not_mem arg9.view _ _ _ [] j ho rfl h).trans ?_
  rw [View.writes_nil, harg9.read_unread]

end Cert.Kernel.Hand

end
-- ==== Proof.Bits.Spec.lean ====
/- The two-layer graph convolution as three whole-array functions of the argument arrays, written
   over the kernel body's own arithmetic (its payload terms): the first layer's support x·W1; the
   second layer's support relu(adj·support1 + b1)·W2, whose rows 400p..400p+399 the kernel forms
   from panel p (those rows) of the adjacency matrix; and the result adj·support2 + b2, whose rows
   400p..400p+399 it forms from the same panel. Row r lies in panel r / 400 at position r % 400. -/
import proofs.«170562_g43207370998079_cont_8to1_b_1494_6_alg».proof.Proof.Bits.Cases
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

/-- Panel `p` of the adjacency matrix: its rows 400p, …, 400p + 399. -/
def panel (adj : Vec F S10000x10000 .f32) (p : Fin 25) : Vec F S400x10000 .f32 :=
  fun y => adj (ix2 (⟨400 * p.val + (y 0).val, by have := idx2_lt0 y; have := p.isLt; omega⟩ : Fin 10000) (y 1))

/-- The panel of a row and the row's place in it. -/
def panelIx (r : Fin 10000) : Fin 25 := ⟨r.val / 400, by have := r.isLt; omega⟩
def inPanel (r : Fin 10000) : Fin 400 := ⟨r.val % 400, Nat.mod_lt _ (by decide)⟩

/-- The first layer's support, x·W1. -/
def support1 (x : Vec F S10000x128 .f32) (W1 : Vec F S128x16 .f32) : Vec F S10000x16 .bf16 := k0_pay2 x W1

/-- The second layer's support: row r from the panel that holds row r. -/
def support2 (adj : Vec F S10000x10000 .f32) (x : Vec F S10000x128 .f32) (W1 : Vec F S128x16 .f32) (b1 : Vec F S1x16 .f32)
    (W2 : Vec F S16x8 .f32) : Vec F S10000x8 .bf16 :=
  fun j => k0_pay3 (panel adj (panelIx (j 0))) (support1 x W1) b1 W2 (ix2 (inPanel (j 0)) (j 1))

/-- The result: row r from the panel that holds row r and the whole second support. -/
def result (adj : Vec F S10000x10000 .f32) (x : Vec F S10000x128 .f32) (W1 : Vec F S128x16 .f32) (b1 : Vec F S1x16 .f32)
    (W2 : Vec F S16x8 .f32) (b2 : Vec F S1x8 .f32) : Vec F S10000x8 .f32 :=
  fun j => k0_pay4 (panel adj (panelIx (j 0))) (support2 adj x W1 b1 W2) b2 (ix2 (inPanel (j 0)) (j 1))

/-- Row 400p + q of the second support is position q of what panel p yields. -/
theorem support2_row (adj : Vec F S10000x10000 .f32) (x : Vec F S10000x128 .f32) (W1 : Vec F S128x16 .f32) (b1 : Vec F S1x16 .f32)
    (W2 : Vec F S16x8 .f32) (p : Fin 25) (j : S10000x8.Idx) (y : S400x8.Idx)
    (h0 : (j 0).val = 400 * p.val + (y 0).val) (h1 : (j 1).val = (y 1).val) :
    support2 adj x W1 b1 W2 j = k0_pay3 (panel adj p) (support1 x W1) b1 W2 y := by
  have hy := idx2_lt0 y
  have hp : panelIx (j 0) = p := Fin.ext (by show (j 0).val / 400 = p.val; omega)
  have hq : (ix2 (inPanel (j 0)) (j 1) : S400x8.Idx) = y := by
    funext a; match a with
    | ⟨0, _⟩ => exact Fin.ext (by show (j 0).val % 400 = (y 0).val; omega)
    | ⟨1, _⟩ => exact Fin.ext h1
  unfold support2; rw [hp, hq]

/-- Row 400p + q of the result is position q of what panel p yields. -/
theorem result_row (adj : Vec F S10000x10000 .f32) (x : Vec F S10000x128 .f32) (W1 : Vec F S128x16 .f32) (b1 : Vec F S1x16 .f32)
    (W2 : Vec F S16x8 .f32) (b2 : Vec F S1x8 .f32) (p : Fin 25) (j : S10000x8.Idx) (y : S400x8.Idx)
    (h0 : (j 0).val = 400 * p.val + (y 0).val) (h1 : (j 1).val = (y 1).val) :
    result adj x W1 b1 W2 b2 j = k0_pay4 (panel adj p) (support2 adj x W1 b1 W2) b2 y := by
  have hy := idx2_lt0 y
  have hp : panelIx (j 0) = p := Fin.ext (by show (j 0).val / 400 = p.val; omega)
  have hq : (ix2 (inPanel (j 0)) (j 1) : S400x8.Idx) = y := by
    funext a; match a with
    | ⟨0, _⟩ => exact Fin.ext (by show (j 0).val % 400 = (y 0).val; omega)
    | ⟨1, _⟩ => exact Fin.ext h1
  unfold result; rw [hp, hq]

end Cert.Kernel.Hand

end
-- ==== Proof.Bits.Data.lean ====
/- The proof data of the pipelined kernel. The arrays as the region finds them; each window's block
   as a function of them (the adjacency window's block at point t is panel t mod 25, every other
   input window's block is its whole array); what the two scratch buffers hold before point n (the
   first support from point 1 on; rows below 400·min(n, 25) of the second support); and how a
   second-pass point changes the result's staging buffer: rows 400·(t mod 25) … +399 become the
   result's rows, every other row stays. -/
import proofs.«170562_g43207370998079_cont_8to1_b_1494_6_alg».proof.Proof.Bits.Spec
import proofs.«170562_g43207370998079_cont_8to1_b_1494_6_alg».proof.Proof.Gen.Kernel.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The memrefs the body is called with -/

abbrev stg0 (t : Fin cfg0.N) : Memref sig .tc .vmem S400x10000 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S10000x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x16 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x16 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S16x8 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x8 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S10000x8 .f32 := win0_6.stage (cfg0.slots t 6)
abbrev hstg6 (t : Fin cfg0.N) : (stg6 t).IsWhole := hstage0_6 ((cfg0.slots t 6).cast nbuf0_6)
abbrev sc0 : Memref sig .tc .vmem S10000x16 .bf16 := Memref.whole cc0_scratch0
abbrev sc1 : Memref sig .tc .vmem S10000x8 .bf16 := Memref.whole cc0_scratch1

/-! ## The arrays at the region's entry, and the three closed forms over them -/

abbrev adjA (c : Dev nD) : Vec F S10000x10000 .f32 := V m c main_arg1
abbrev xA (c : Dev nD) : Vec F S10000x128 .f32 := V m c main_arg0
abbrev w1A (c : Dev nD) : Vec F S128x16 .f32 := V m c main_arg2
abbrev b1A (c : Dev nD) : Vec F S1x16 .f32 := V m c main_call0_v0
abbrev w2A (c : Dev nD) : Vec F S16x8 .f32 := V m c main_arg4
abbrev b2A (c : Dev nD) : Vec F S1x8 .f32 := V m c main_call0_v1

def sup1 (c : Dev nD) : Vec F S10000x16 .bf16 := support1 (xA m c) (w1A m c)
def sup2 (c : Dev nD) : Vec F S10000x8 .bf16 := support2 (adjA m c) (xA m c) (w1A m c) (b1A m c) (w2A m c)
def res (c : Dev nD) : Vec F S10000x8 .f32 := result (adjA m c) (xA m c) (w1A m c) (b1A m c) (w2A m c) (b2A m c)

/-! ## The windows' blocks -/

theorem adjIndex : ∀ t : Fin cfg0.N, win0_0.index t 0 = t.val % 25 ∧ win0_0.index t 1 = 0 :=
  (by decide +kernel : ∀ t : Fin grid0.N, win0_0.index t 0 = t.val % 25 ∧ win0_0.index t 1 = 0)

/-- The panel a point works on. -/
def pan (t : Fin cfg0.N) : Fin 25 := ⟨t.val % 25, Nat.mod_lt _ (by decide)⟩

theorem blk0 (c : Dev nD) (t : Fin cfg0.N) : (iblk m c 0 t : Vec F S400x10000 .f32) = panel (adjA m c) (pan t) := by
  funext y
  unfold iblk panel
  rw [View.read_apply]
  show V m c main_arg1 _ = V m c main_arg1 _
  congr 1
  funext a
  apply Fin.ext
  match a with
  | ⟨0, _⟩ => show win0_0.index t 0 * 400 + 1 * (y 0).val = 400 * (t.val % 25) + (y 0).val; rw [(adjIndex t).1]; omega
  | ⟨1, _⟩ => show win0_0.index t 1 * 10000 + 1 * (y 1).val = (y 1).val; rw [(adjIndex t).2]; omega

theorem blk1 (c : Dev nD) (t : Fin cfg0.N) : (iblk m c 1 t : Vec F S10000x128 .f32) = xA m c := by
  funext y; unfold iblk; rw [View.read_apply]; show V m c main_arg0 _ = V m c main_arg0 _
  congr 1; funext a; apply Fin.ext
  match a with
  | ⟨0, _⟩ => show 0 * 10000 + 1 * (y 0).val = (y 0).val; omega
  | ⟨1, _⟩ => show 0 * 128 + 1 * (y 1).val = (y 1).val; omega
theorem blk2 (c : Dev nD) (t : Fin cfg0.N) : (iblk m c 2 t : Vec F S128x16 .f32) = w1A m c := by
  funext y; unfold iblk; rw [View.read_apply]; show V m c main_arg2 _ = V m c main_arg2 _
  congr 1; funext a; apply Fin.ext
  match a with
  | ⟨0, _⟩ => show 0 * 128 + 1 * (y 0).val = (y 0).val; omega
  | ⟨1, _⟩ => show 0 * 16 + 1 * (y 1).val = (y 1).val; omega
theorem blk3 (c : Dev nD) (t : Fin cfg0.N) : (iblk m c 3 t : Vec F S1x16 .f32) = b1A m c := by
  funext y; unfold iblk; rw [View.read_apply]; show V m c main_call0_v0 _ = V m c main_call0_v0 _
  congr 1; funext a; apply Fin.ext
  match a with
  | ⟨0, _⟩ => show 0 * 1 + 1 * (y 0).val = (y 0).val; omega
  | ⟨1, _⟩ => show 0 * 16 + 1 * (y 1).val = (y 1).val; omega
theorem blk4 (c : Dev nD) (t : Fin cfg0.N) : (iblk m c 4 t : Vec F S16x8 .f32) = w2A m c := by
  funext y; unfold iblk; rw [View.read_apply]; show V m c main_arg4 _ = V m c main_arg4 _
  congr 1; funext a; apply Fin.ext
  match a with
  | ⟨0, _⟩ => show 0 * 16 + 1 * (y 0).val = (y 0).val; omega
  | ⟨1, _⟩ => show 0 * 8 + 1 * (y 1).val = (y 1).val; omega
theorem blk5 (c : Dev nD) (t : Fin cfg0.N) : (iblk m c 5 t : Vec F S1x8 .f32) = b2A m c := by
  funext y; unfold iblk; rw [View.read_apply]; show V m c main_call0_v1 _ = V m c main_call0_v1 _
  congr 1; funext a; apply Fin.ext
  match a with
  | ⟨0, _⟩ => show 0 * 1 + 1 * (y 0).val = (y 0).val; omega
  | ⟨1, _⟩ => show 0 * 8 + 1 * (y 1).val = (y 1).val; omega

/-! ## The invariant between points -/

/-- Rows below 400·min(n, 25) of `d` are the second support's. -/
def sup2Upto (c : Dev nD) (n : ℕ) (d : Vec F S10000x8 .bf16) : Prop :=
  ∀ j : S10000x8.Idx, (j 0).val < 400 * min n 25 → d j = sup2 m c j

/-- The first scratch buffer before point `n`: anything before the first point, the first support afterwards. -/
def sc0At (c : Dev nD) (n : ℕ) : sProp 𝕄 :=
  if n = 0 then iprop(∃ d, owns (c : Thread nD τ) sc0 fullShare d) else owns (c : Thread nD τ) sc0 fullShare (sup1 m c)

/-- The invariant before point `n`. -/
def PhiS (c : Dev nD) (n : ℕ) : sProp 𝕄 :=
  iprop(iprop(sc0At m c n ∗ (∃ d, ⌜sup2Upto m c n d⌝ ∗ owns (c : Thread nD τ) sc1 fullShare d)) ∗ (∃ r, prngReg c r))

/-- The class invariant of the launch: both scratch buffers at anything, the generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The proof data -/

/-- Exact data for the inputs: each input's buffer holds its block after the body as before it. The
    result's window is constrained by a relation instead (`outStep`). -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val
  q _ := fullShare
  owed _ := 0

/-- What a point does to the result's staging buffer: a second-pass point (t ≥ 25) overwrites rows
    400·(t mod 25) … +399 with the result's rows; every other row, and every row at a first-pass
    point, is left as found. -/
def outStep (c : Dev nD) (t : Fin cfg0.N) (Y X : Vec F S10000x8 .f32) : Prop :=
  ∀ j : S10000x8.Idx, X j = if 25 ≤ t.val ∧ 400 * (t.val % 25) ≤ (j 0).val ∧ (j 0).val < 400 * (t.val % 25) + 400 then res m c j else Y j

def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => some (outStep m c)

/-- The relational proof data: the exact data read relationally, the result's window under `outStep`. -/
def rd (c : Dev nD) : RDat τ (Elt F) Unit ℕ (UR sig nD τ) ℕ cfg0 c := (dat m c).toR.override (ovr m c)

theorem rd_A (c : Dev nD) (w : Fin cfg0.W) : (rd m c).A w = V m c (Pipeline.arrRef spec0 w) := rfl

end Cert.Kernel.Hand

end
-- ==== Proof.Bits.Body.lean ====
/- The body obligation. At every point the body, handed the inputs' blocks, the result's staging
   buffer at any contents and the invariant before the point, runs to the invariant after the
   point with the inputs as found and the result's buffer changed as `outStep` says. Three kinds
   of point: the first (it also forms the first support), the other first-pass points, and the
   second-pass points. -/
import proofs.«170562_g43207370998079_cont_8to1_b_1494_6_alg».proof.Proof.Bits.Pieces
import proofs.«170562_g43207370998079_cont_8to1_b_1494_6_alg».proof.Proof.Bits.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A row's position inside the 400 rows that start at row `o`. -/
def posIn (o : ℕ) (j : S10000x8.Idx) (h : o ≤ (j 0).val ∧ (j 0).val < o + 400) : S400x8.Idx :=
  ix2 (⟨(j 0).val - o, by omega⟩ : Fin 400) (j 1)

theorem posIn_0 (o : ℕ) (j : S10000x8.Idx) (h : o ≤ (j 0).val ∧ (j 0).val < o + 400) : (j 0).val = o + ((posIn o j h) 0).val := by
  show (j 0).val = o + ((j 0).val - o); omega
theorem posIn_1 (o : ℕ) (j : S10000x8.Idx) (h : o ≤ (j 0).val ∧ (j 0).val < o + 400) : (j 1).val = ((posIn o j h) 1).val := rfl

/-- What the body is called with at point `t`, the result's buffer at `Y6`. -/
def bodyPre (c : Dev nD) (t : Fin cfg0.N) (Y6 : Vec F S10000x8 .f32) : sProp 𝕄 :=
  iprop(PhiS m c t.val ∗ (rd m c).owesAt () t.castSucc
    ∗ owns (c : Thread nD τ) (stg0 t) fullShare (panel (adjA m c) (pan t)) ∗ owns (c : Thread nD τ) (stg1 t) fullShare (xA m c) ∗ owns (c : Thread nD τ) (stg2 t) fullShare (w1A m c) ∗ owns (c : Thread nD τ) (stg3 t) fullShare (b1A m c) ∗ owns (c : Thread nD τ) (stg4 t) fullShare (w2A m c) ∗ owns (c : Thread nD τ) (stg5 t) fullShare (b2A m c)
    ∗ owns (c : Thread nD τ) (stg6 t) fullShare Y6)

/-- and what it returns. -/
def bodyPost (c : Dev nD) (t : Fin cfg0.N) (Y6 : Vec F S10000x8 .f32) : sProp 𝕄 :=
  iprop(PhiS m c (t.val + 1) ∗ (rd m c).owesAt () t.succ
    ∗ owns (c : Thread nD τ) (stg0 t) fullShare (panel (adjA m c) (pan t)) ∗ owns (c : Thread nD τ) (stg1 t) fullShare (xA m c) ∗ owns (c : Thread nD τ) (stg2 t) fullShare (w1A m c) ∗ owns (c : Thread nD τ) (stg3 t) fullShare (b1A m c) ∗ owns (c : Thread nD τ) (stg4 t) fullShare (w2A m c) ∗ owns (c : Thread nD τ) (stg5 t) fullShare (b2A m c)
    ∗ (∃ X, ⌜outStep m c t Y6 X⌝ ∗ owns (c : Thread nD τ) (stg6 t) fullShare X))

set_option maxHeartbeats 4000000 in
theorem sound_body (c : Dev nD) (t : Fin cfg0.N) (Y6 : Vec F S10000x8 .f32) :
    bodyPre m c t Y6 ⊢ wp frame (wpE (defs₀ (F := F)) Variants.none c none) Set.univ (bodyAt0 t) (fun _ => bodyPost m c t Y6) := by
  unfold bodyPre bodyPost bodyAt0
  rw [show (rd m c).owesAt () t.succ = (rd m c).owesAt () t.castSucc from rfl]
  have hN : t.val < 50 := lt_of_lt_of_eq t.isLt N50
  unfold PhiS
  by_cases hz : t.val = 0
  · -- the first point
    have hc0 : atFirst (grid0.coords t) := (atFirst_iff t).mpr hz
    have hc1 : inPass1 (grid0.coords t) := (inPass1_iff t).mpr (by omega)
    have hc2 : ¬inPass2 (grid0.coords t) := fun h => by have := (inPass2_iff t).mp h; omega
    have ho : k0_off1 (grid0.coords t) = ![0, 0] := by rw [off1_eq t, hz]
    rw [show sc0At m c t.val = iprop(∃ d, owns (c : Thread nD τ) sc0 fullShare d) from by unfold sc0At; rw [if_pos hz]]
    rw [show sc0At m c (t.val + 1) = owns (c : Thread nD τ) sc0 fullShare (sup1 m c) from by unfold sc0At; rw [if_neg (Nat.succ_ne_zero _)]]
    iintro ⟨⟨⟨HS0, ⟨%d1, -, HS1⟩⟩, Hg⟩, Ho, H0, H1, H2, H3, H4, H5, H6⟩
    iapply ((firstRun c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 d1).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%f, HS0⟩, HS1⟩
    isplitl [HS0 HS1 Hg]
    · isplitl [HS0 HS1]
      · isplitl [HS0]
        · unfold owns; iexists _; isplitr
          swap; · iexact HS0
          ipureintro
          exact first_support1 c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 d1 f
        · iexists _; isplitr
          swap
          · unfold owns; iexists _; isplitr
            swap; · iexact HS1
            ipureintro; rfl
          ipureintro
          intro j hj
          have hj' : 0 ≤ (j 0).val ∧ (j 0).val < 0 + 400 := by
            have : min (t.val + 1) 25 = 1 := by omega
            rw [this] at hj; omega
          refine (first_in c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 d1 0 ho j (posIn 0 j hj') (posIn_0 0 j hj') (posIn_1 0 j hj')).trans ?_
          unfold sup2
          refine (support2_row (adjA m c) (xA m c) (w1A m c) (b1A m c) (w2A m c) (pan t) j (posIn 0 j hj') ?_ (posIn_1 0 j hj')).symm
          have := posIn_0 0 j hj'
          show (j 0).val = 400 * (t.val % 25) + _
          rw [hz]; omega
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr
    swap; · iexact H6
    ipureintro
    intro j
    rw [if_neg (by omega)]
  · by_cases h1 : t.val < 25
    · -- a first-pass point after the first
      have hc0 : ¬atFirst (grid0.coords t) := fun h => hz ((atFirst_iff t).mp h)
      have hc1 : inPass1 (grid0.coords t) := (inPass1_iff t).mpr h1
      have hc2 : ¬inPass2 (grid0.coords t) := fun h => by have := (inPass2_iff t).mp h; omega
      have hmod : t.val % 25 = t.val := Nat.mod_eq_of_lt h1
      have ho : k0_off1 (grid0.coords t) = ![400 * t.val, 0] := by rw [off1_eq t, hmod]
      rw [show sc0At m c t.val = owns (c : Thread nD τ) sc0 fullShare (sup1 m c) from by unfold sc0At; rw [if_neg hz]]
      rw [show sc0At m c (t.val + 1) = owns (c : Thread nD τ) sc0 fullShare (sup1 m c) from by unfold sc0At; rw [if_neg (Nat.succ_ne_zero _)]]
      iintro ⟨⟨⟨HS0, ⟨%d1, %hd1, HS1⟩⟩, Hg⟩, Ho, H0, H1, H2, H3, H4, H5, H6⟩
      iapply ((pass1Run c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) d1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            intro j hj
            have hmin : min (t.val + 1) 25 = t.val + 1 := by omega
            have hmin' : min t.val 25 = t.val := by omega
            rw [hmin] at hj
            by_cases hin : 400 * t.val ≤ (j 0).val
            · have hj' : 400 * t.val ≤ (j 0).val ∧ (j 0).val < 400 * t.val + 400 := by omega
              refine (pass1_in c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) d1 (400 * t.val) ho j (posIn _ j hj') (posIn_0 _ j hj') (posIn_1 _ j hj')).trans ?_
              unfold sup2 sup1
              refine (support2_row (adjA m c) (xA m c) (w1A m c) (b1A m c) (w2A m c) (pan t) j (posIn _ j hj') ?_ (posIn_1 _ j hj')).symm
              have := posIn_0 _ j hj'
              show (j 0).val = 400 * (t.val % 25) + _
              rw [hmod]; exact this
            · refine (pass1_out c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) d1 (400 * t.val) ho j (by omega)).trans ?_
              exact hd1 j (by rw [hmin']; omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; isplitr
      swap; · iexact H6
      ipureintro
      intro j
      rw [if_neg (by omega)]
    · -- a second-pass point
      have h2 : 25 ≤ t.val := by omega
      have hc0 : ¬atFirst (grid0.coords t) := fun h => hz ((atFirst_iff t).mp h)
      have hc1 : ¬inPass1 (grid0.coords t) := fun h => h1 ((inPass1_iff t).mp h)
      have hc2 : inPass2 (grid0.coords t) := (inPass2_iff t).mpr h2
      have ho : k0_off2 (grid0.coords t) = ![400 * (t.val % 25), 0] := off2_eq t
      rw [show sc0At m c t.val = owns (c : Thread nD τ) sc0 fullShare (sup1 m c) from by unfold sc0At; rw [if_neg hz]]
      rw [show sc0At m c (t.val + 1) = owns (c : Thread nD τ) sc0 fullShare (sup1 m c) from by unfold sc0At; rw [if_neg (Nat.succ_ne_zero _)]]
      iintro ⟨⟨⟨HS0, ⟨%d1, %hd1, HS1⟩⟩, Hg⟩, Ho, H0, H1, H2, H3, H4, H5, H6⟩
      have hall : d1 = sup2 m c := funext fun j => hd1 j (by
        have := idx2_lt0 j
        have : min t.val 25 = 25 := by omega
        rw [this]; omega)
      subst hall
      iapply ((pass2Run c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) (sup2 m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists _; isplitr
            swap; · iexact HS1
            ipureintro
            intro j _
            rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; isplitr
      swap
      · unfold owns; iexists _; isplitr
        swap; · iexact H6
        ipureintro; rfl
      ipureintro
      intro j
      by_cases hin : 400 * (t.val % 25) ≤ (j 0).val ∧ (j 0).val < 400 * (t.val % 25) + 400
      · rw [if_pos ⟨h2, hin⟩]
        refine (pass2_in c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) (sup2 m c) (400 * (t.val % 25)) ho j (posIn _ j hin) (posIn_0 _ j hin) (posIn_1 _ j hin)).trans ?_
        unfold res sup2
        exact (result_row (adjA m c) (xA m c) (w1A m c) (b1A m c) (w2A m c) (b2A m c) (pan t) j (posIn _ j hin) (posIn_0 _ j hin) (posIn_1 _ j hin)).symm
      · rw [if_neg (fun h => hin h.2)]
        exact pass2_out c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) (sup2 m c) (400 * (t.val % 25)) ho j (by omega)

end Cert.Kernel.Hand

end
-- ==== Proof.Bits.Launch.lean ====
/- The launch. Each input window's buffer holds its block at every point, so the body obligation of
   the relational proof data follows from the body's triple; the launch theorem then gives the run:
   the argument arrays end unchanged, and the result array ends at contents reachable by the
   write-back of the last point. -/
import proofs.«170562_g43207370998079_cont_8to1_b_1494_6_alg».proof.Proof.Bits.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## What the body finds in, and leaves in, the inputs' buffers -/

theorem finds0 (c : Dev nD) (t : Fin cfg0.N) (Y : (cfg0.win 0).block.Idx → Elt F (cfg0.win 0).elt) (h : (rd m c).Finds 0 t Y) :
    Y = (panel (adjA m c) (pan t)) := by
  obtain ⟨d, hd⟩ := (dat m c).toR_finds 0 t Y (((dat m c).toR.override_finds (ovr := ovr m c) (w := 0) rfl t Y).mp h)
  rw [hd, before0_0_of m (dat m c) rfl (fun _ => rfl) t d]; exact blk0 m c t
theorem after0 (c : Dev nD) (t : Fin cfg0.N) (Y : (cfg0.win 0).block.Idx → Elt F (cfg0.win 0).elt) :
    (rd m c).after 0 t Y (panel (adjA m c) (pan t)) := by
  rw [show (rd m c).after 0 = (dat m c).toR.after 0 from (dat m c).toR.override_after_of_eq_none rfl]
  show (dat m c).Leaves 0 t _
  rw [Dat.Leaves.live_iff _ (.inl rfl)]
  exact (blk0 m c t).symm
theorem finds1 (c : Dev nD) (t : Fin cfg0.N) (Y : (cfg0.win 1).block.Idx → Elt F (cfg0.win 1).elt) (h : (rd m c).Finds 1 t Y) :
    Y = (xA m c) := by
  obtain ⟨d, hd⟩ := (dat m c).toR_finds 1 t Y (((dat m c).toR.override_finds (ovr := ovr m c) (w := 1) rfl t Y).mp h)
  rw [hd, before0_1_of m (dat m c) rfl (fun _ => rfl) t d]; exact blk1 m c t
theorem after1 (c : Dev nD) (t : Fin cfg0.N) (Y : (cfg0.win 1).block.Idx → Elt F (cfg0.win 1).elt) :
    (rd m c).after 1 t Y (xA m c) := by
  rw [show (rd m c).after 1 = (dat m c).toR.after 1 from (dat m c).toR.override_after_of_eq_none rfl]
  show (dat m c).Leaves 1 t _
  rw [Dat.Leaves.live_iff _ (.inl rfl)]
  exact (blk1 m c t).symm
theorem finds2 (c : Dev nD) (t : Fin cfg0.N) (Y : (cfg0.win 2).block.Idx → Elt F (cfg0.win 2).elt) (h : (rd m c).Finds 2 t Y) :
    Y = (w1A m c) := by
  obtain ⟨d, hd⟩ := (dat m c).toR_finds 2 t Y (((dat m c).toR.override_finds (ovr := ovr m c) (w := 2) rfl t Y).mp h)
  rw [hd, before0_2_of m (dat m c) rfl (fun _ => rfl) t d]; exact blk2 m c t
theorem after2 (c : Dev nD) (t : Fin cfg0.N) (Y : (cfg0.win 2).block.Idx → Elt F (cfg0.win 2).elt) :
    (rd m c).after 2 t Y (w1A m c) := by
  rw [show (rd m c).after 2 = (dat m c).toR.after 2 from (dat m c).toR.override_after_of_eq_none rfl]
  show (dat m c).Leaves 2 t _
  rw [Dat.Leaves.live_iff _ (.inl rfl)]
  exact (blk2 m c t).symm
theorem finds3 (c : Dev nD) (t : Fin cfg0.N) (Y : (cfg0.win 3).block.Idx → Elt F (cfg0.win 3).elt) (h : (rd m c).Finds 3 t Y) :
    Y = (b1A m c) := by
  obtain ⟨d, hd⟩ := (dat m c).toR_finds 3 t Y (((dat m c).toR.override_finds (ovr := ovr m c) (w := 3) rfl t Y).mp h)
  rw [hd, before0_3_of m (dat m c) rfl (fun _ => rfl) t d]; exact blk3 m c t
theorem after3 (c : Dev nD) (t : Fin cfg0.N) (Y : (cfg0.win 3).block.Idx → Elt F (cfg0.win 3).elt) :
    (rd m c).after 3 t Y (b1A m c) := by
  rw [show (rd m c).after 3 = (dat m c).toR.after 3 from (dat m c).toR.override_after_of_eq_none rfl]
  show (dat m c).Leaves 3 t _
  rw [Dat.Leaves.live_iff _ (.inl rfl)]
  exact (blk3 m c t).symm
theorem finds4 (c : Dev nD) (t : Fin cfg0.N) (Y : (cfg0.win 4).block.Idx → Elt F (cfg0.win 4).elt) (h : (rd m c).Finds 4 t Y) :
    Y = (w2A m c) := by
  obtain ⟨d, hd⟩ := (dat m c).toR_finds 4 t Y (((dat m c).toR.override_finds (ovr := ovr m c) (w := 4) rfl t Y).mp h)
  rw [hd, before0_4_of m (dat m c) rfl (fun _ => rfl) t d]; exact blk4 m c t
theorem after4 (c : Dev nD) (t : Fin cfg0.N) (Y : (cfg0.win 4).block.Idx → Elt F (cfg0.win 4).elt) :
    (rd m c).after 4 t Y (w2A m c) := by
  rw [show (rd m c).after 4 = (dat m c).toR.after 4 from (dat m c).toR.override_after_of_eq_none rfl]
  show (dat m c).Leaves 4 t _
  rw [Dat.Leaves.live_iff _ (.inl rfl)]
  exact (blk4 m c t).symm
theorem finds5 (c : Dev nD) (t : Fin cfg0.N) (Y : (cfg0.win 5).block.Idx → Elt F (cfg0.win 5).elt) (h : (rd m c).Finds 5 t Y) :
    Y = (b2A m c) := by
  obtain ⟨d, hd⟩ := (dat m c).toR_finds 5 t Y (((dat m c).toR.override_finds (ovr := ovr m c) (w := 5) rfl t Y).mp h)
  rw [hd, before0_5_of m (dat m c) rfl (fun _ => rfl) t d]; exact blk5 m c t
theorem after5 (c : Dev nD) (t : Fin cfg0.N) (Y : (cfg0.win 5).block.Idx → Elt F (cfg0.win 5).elt) :
    (rd m c).after 5 t Y (b2A m c) := by
  rw [show (rd m c).after 5 = (dat m c).toR.after 5 from (dat m c).toR.override_after_of_eq_none rfl]
  show (dat m c).Leaves 5 t _
  rw [Dat.Leaves.live_iff _ (.inl rfl)]
  exact (blk5 m c t).symm

theorem after6 (c : Dev nD) (t : Fin cfg0.N) (Y X : (cfg0.win 6).block.Idx → Elt F (cfg0.win 6).elt) :
    (rd m c).after 6 t Y X ↔ outStep m c t Y X := by
  rw [show (rd m c).after 6 = outStep m c from (dat m c).toR.override_after_of_eq_some rfl]

/-! ## The body obligation -/

theorem body_obligation (c : Dev nD) : (rd m c).BodyObligation (defs₀ (F := F)) Variants.none () Set.univ := fun t Y hY => by
  rw [bigSep_W0, bigSep_W0]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  rw [show (rd m c).Φ t.succ = PhiS m c (t.val + 1) from rfl]
  refine (sound_body m c t (Y 6)).trans (wp_mono _ _ _ fun _ => ?_)
  unfold bodyPost
  iintro ⟨HΦ, Ho, H0, H1, H2, H3, H4, H5, ⟨%X, %hX, H6⟩⟩
  isplitl [HΦ]; · iexact HΦ
  isplitl [Ho]; · iexact Ho
  isplitl [H0]
  · iexists _; isplitr; · ipureintro; exact after0 m c t _
    iexact H0
  isplitl [H1]
  · iexists _; isplitr; · ipureintro; exact after1 m c t _
    iexact H1
  isplitl [H2]
  · iexists _; isplitr; · ipureintro; exact after2 m c t _
    iexact H2
  isplitl [H3]
  · iexists _; isplitr; · ipureintro; exact after3 m c t _
    iexact H3
  isplitl [H4]
  · iexists _; isplitr; · ipureintro; exact after4 m c t _
    iexact H4
  isplitl [H5]
  · iexists _; isplitr; · ipureintro; exact after5 m c t _
    iexact H5
  iexists X; isplitr; · ipureintro; exact (after6 m c t (Y 6) X).mpr hX
  iexact H6

/-! ## Into and out of the invariant -/

theorem hin (c : Dev nD) : Pipeline.ΦA spec0 c ⊢ (rd m c).Φ 0 := by
  show _ ⊢ PhiS m c 0
  rw [PhiA_eq]; unfold PhiS sc0At; rw [if_pos rfl]
  iintro ⟨⟨HS0, ⟨%d, HS1⟩⟩, Hg⟩
  isplitl [HS0 HS1]
  · isplitl [HS0]; · iexact HS0
    iexists d; isplitr
    · ipureintro; intro j hj; exact absurd hj (by simp)
    iexact HS1
  iexact Hg

theorem hout (c : Dev nD) : (rd m c).Φ (Fin.last cfg0.N) ⊢ Pipeline.ΦA spec0 c := by
  show PhiS m c (Fin.last cfg0.N).val ⊢ _
  rw [PhiA_eq]; unfold PhiS sc0At
  rw [if_neg (by rw [Fin.val_last, N50]; decide)]
  iintro ⟨⟨HS0, ⟨%d, -, HS1⟩⟩, Hg⟩
  isplitl [HS0 HS1]
  · isplitl [HS0]; · iexists _; iexact HS0
    iexists d; iexact HS1
  iexact Hg

/-! ## The run -/

set_option backward.isDefEq.respectTransparency.types false in
theorem run_main : θ_run defs (onTc (τ := τ) (main (F := F))) (s₀ m ρ) (Pipeline.RDat.FramePost (cfgs 0) (rd m) (V m)) :=
  Pipeline.RDat.θ_run_frame_track cfgs (0 : Fin 1) launch0 defs₀ Variants.none (rd m) m ρ main
    (hbody := body_obligation m) (hshare := fun c => (rd m c).share_full fun _ => rfl)
    (howed := fun _ _ => rfl) (V := V m) (hmain := hmain m Variants.none) (hA := rd_A m) (hin := hin m) (hout := hout m)

end Cert.Kernel.Hand

end
-- ==== Proof.LibRelArr.lean ====
/- General facts about the arrays of relational pipeline proof data (`Pipeline.RDat`).

   For a window whose block is written back only at the grid's last point: below that point the
   array keeps its entry contents, and after it the array, read through the last point's block, is
   the moved part of some contents the body may have left in the staging buffer there. -/
import Idealize.ShloMosaic.Lib.Pipeline.Dat

noncomputable section

namespace Idealize.ShloMosaic.Pipeline.RDat

open Idealize.SL Idealize.ShloMosaic Idealize.ShloMosaic.TcCoe

variable {nD : Nat} {τ : Topo} {sig : RefSig} {Val : EltTy → Type} {Λ₀ : SL.Sem.Labels}
variable {Ix : Type} [DecidableEq Ix] {Name : Type} [DecidableEq Name] {U : Type} [RA.URA U] {Lvl : Type}
variable {cfg : Cfg sig Λ₀} {c : Dev nD} (rd : RDat τ Val Ix Name U Lvl cfg c)

/-- While no point below `n` writes window `w`'s block back, its array holds its entry contents. -/
theorem arrAt_of_noFlush (w : Fin cfg.W) :
    ∀ n, (∀ k (hk : k < cfg.N), k < n → (cfg.win w).flush ⟨k, hk⟩ = false) →
      ∀ G, rd.ArrAt w n G ↔ G = rd.A w
  | 0, _, _ => Iff.rfl
  | n + 1, hno, G => by
    simp only [RDat.ArrAt]
    by_cases h : n < cfg.N
    · rw [dif_pos h, if_neg (by rw [hno n h (Nat.lt_succ_self n)]; exact Bool.false_ne_true)]
      exact arrAt_of_noFlush w n (fun k hk hkn => hno k hk (Nat.lt_succ_of_lt hkn)) G
    · rw [dif_neg h]
      exact arrAt_of_noFlush w n (fun k hk hkn => hno k hk (Nat.lt_succ_of_lt hkn)) G

/-- One write-back: the array read through the point's block is the moved part of what the body left. -/
theorem ArrStep.read_blk {w : Fin cfg.W} {u : Fin cfg.N}
    {P : Buf Val ((cfg.win w).arr.view.loc (c.tc : Thread nD τ)) → Prop}
    {G : Buf Val ((cfg.win w).arr.view.loc (c.tc : Thread nD τ))} (h : rd.ArrStep w u P G) :
    ∃ X, rd.Leaves w u X ∧ ((cfg.win w).blk u).view.read Val G = (cfg.win w).cut (cfg.grid.coords u) X := by
  obtain ⟨G₀, X, -, hX, rfl⟩ := h
  exact ⟨X, hX, View.read_write_univ _ _⟩

/-- A window written back at the last point `n` only (the grid has `n + 1` points): after the run its
    array, read through that point's block, is the moved part of what the body left there. -/
theorem read_last (w : Fin cfg.W) (n : ℕ) (hn : n < cfg.N) (hN : cfg.N = n + 1)
    (hno : ∀ k (hk : k < cfg.N), k < n → (cfg.win w).flush ⟨k, hk⟩ = false)
    (hf : (cfg.win w).flush ⟨n, hn⟩ = true)
    (G : Buf Val ((cfg.win w).arr.view.loc (c.tc : Thread nD τ))) (h : rd.ArrAt w cfg.N G) :
    ∃ X, rd.Leaves w ⟨n, hn⟩ X
      ∧ ((cfg.win w).blk ⟨n, hn⟩).view.read Val G = (cfg.win w).cut (cfg.grid.coords ⟨n, hn⟩) X := by
  rw [hN] at h
  simp only [RDat.ArrAt] at h
  rw [dif_pos hn, if_pos hf] at h
  exact ArrStep.read_blk rd h

end Idealize.ShloMosaic.Pipeline.RDat

end
-- ==== Proof.Bits.Final.lean ====
/- The result array after the run. By induction over the points the result's staging buffer holds
   the result's rows 0 … 400·(t − 25) − 1 before second-pass point t; so what the last point leaves
   there is the whole result, and that is what its write-back, the only one, puts in the array. -/
import proofs.«170562_g43207370998079_cont_8to1_b_1494_6_alg».proof.Proof.Bits.Launch
import proofs.«170562_g43207370998079_cont_8to1_b_1494_6_alg».proof.Proof.LibRelArr

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The result array after the run -/

theorem fetch6 : ∀ t : Fin cfg0.N, (cfg0.win 6).fetch t = false :=
  (by decide +kernel : ∀ t : Fin grid0.N, win0_6.fetch t = false)

theorem noFlush (n : ℕ) (hn : n < cfg0.N) (h : n < 49) : (cfg0.win 6).flush ⟨n, hn⟩ = false := by
  cases hf : (cfg0.win 6).flush ⟨n, hn⟩
  · rfl
  · exfalso
    have := (flush0_6 ⟨n, hn⟩).mp hf
    have h2 : n % 50 = 49 := this
    omega

/-- Before second-pass point n the result's staging buffer holds the result's rows below 400·(n − 25). -/
theorem finds_rows (c : Dev nD) : ∀ (n : ℕ) (hn : n < cfg0.N) (Y : (cfg0.win 6).block.Idx → Elt F (cfg0.win 6).elt),
    (rd m c).Finds 6 ⟨n, hn⟩ Y → ∀ j : S10000x8.Idx, 25 ≤ n → (j 0).val < 400 * (n - 25) → (Y : Vec F S10000x8 .f32) j = res m c j
  | 0, _, _, _, _, h25, _ => absurd h25 (by omega)
  | n + 1, hn, Y, hY, j, h25, hj => by
    have hN : n + 1 < 50 := lt_of_lt_of_eq hn N50
    have hn' : n < cfg0.N := Nat.lt_of_succ_lt hn
    have hY1 := ((rd m c).finds_of_pos (fetch6 ⟨n + 1, hn⟩) (Nat.succ_ne_zero n) Y).mp hY
    have hY2 : (cfg0.win 6).flush ⟨n, hn'⟩ = true ∨ (rd m c).Leaves 6 ⟨n, hn'⟩ Y := hY1
    rcases hY2 with hfl | ⟨Y', hY', hstep⟩
    · rw [noFlush n hn' (by omega)] at hfl; exact absurd hfl Bool.false_ne_true
    · have hs : (Y : Vec F S10000x8 .f32) j = if 25 ≤ n ∧ 400 * (n % 25) ≤ (j 0).val ∧ (j 0).val < 400 * (n % 25) + 400 then res m c j else (Y' : Vec F S10000x8 .f32) j :=
        (after6 m c ⟨n, hn'⟩ Y' Y).mp hstep j
      rw [hs]
      by_cases hc : 25 ≤ n ∧ 400 * (n % 25) ≤ (j 0).val ∧ (j 0).val < 400 * (n % 25) + 400
      · rw [if_pos hc]
      · rw [if_neg hc]
        have h25' : 25 ≤ n := by
          by_contra hlt
          have : n = 24 := by omega
          subst this
          omega
        have hmod : n % 25 = n - 25 := by omega
        exact finds_rows c n hn' Y' hY' j h25' (by rw [hmod] at hc; omega)

/-- What the last point leaves in the result's staging buffer is the whole result. -/
theorem leaves_last (c : Dev nD) (hn : 49 < cfg0.N) (X : (cfg0.win 6).block.Idx → Elt F (cfg0.win 6).elt)
    (h : (rd m c).Leaves 6 ⟨49, hn⟩ X) : (X : Vec F S10000x8 .f32) = res m c := by
  obtain ⟨Y, hY, hstep⟩ := h
  funext j
  have hs : (X : Vec F S10000x8 .f32) j = if 25 ≤ 49 ∧ 400 * (49 % 25) ≤ (j 0).val ∧ (j 0).val < 400 * (49 % 25) + 400 then res m c j else (Y : Vec F S10000x8 .f32) j :=
    (after6 m c ⟨49, hn⟩ Y X).mp hstep j
  rw [hs]
  by_cases hc : 25 ≤ 49 ∧ 400 * (49 % 25) ≤ (j 0).val ∧ (j 0).val < 400 * (49 % 25) + 400
  · rw [if_pos hc]
  · rw [if_neg hc]
    have := idx2_lt0 j
    exact finds_rows m c 49 hn Y hY j (by decide) (by omega)

/-- After every write-back the result array holds the result. -/
theorem final_out (c : Dev nD) (G : Buf (Elt F) ((cfg0.win 6).arr.view.loc (c.tc : Thread nD τ)))
    (h : (rd m c).ArrAt 6 cfg0.N G) : (G : Vec F S10000x8 .f32) = res m c := by
  have hlt : 49 < cfg0.N := by rw [N50]; decide
  obtain ⟨X, hX, hr⟩ := (rd m c).read_last 6 49 hlt N50 (fun k hk hk49 => noFlush k hk hk49)
    ((flush0_6 ⟨49, hlt⟩).mpr rfl) G h
  have hXr := leaves_last m c hlt X hX
  funext j
  have hj := congrFun hr j
  rw [View.read_apply] at hj
  refine Eq.trans ?_ (hj.trans (congrFun hXr j))
  congr 1
  funext a
  apply Fin.ext
  match a with
  | ⟨0, _⟩ => show (j 0).val = 0 * 10000 + 1 * (j 0).val; omega
  | ⟨1, _⟩ => show (j 1).val = 0 * 8 + 1 * (j 1).val; omega

/-- THE RUN WITH ITS RESULT: every execution terminates, the result array at the closed form and
    the six argument arrays unchanged. -/
theorem run_value : θ_run defs (onTc (τ := τ) (main (F := F))) ⟨m, fun _ => 0, ρ⟩ (fun r => ∀ c : Dev nD,
      r.2.mem ((c.tc : Thread nD τ).loc main_v0) = (res m c : Vec F S10000x8 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨final_out m c _ ((h c).1 6),
      (Pipeline.RDat.FramePost.arr_in h c 1 rfl).trans ((rd_A m c 1).trans (V_main_arg0 m c)),
      (Pipeline.RDat.FramePost.arr_in h c 0 rfl).trans ((rd_A m c 0).trans (V_main_arg1 m c)),
      (Pipeline.RDat.FramePost.arr_in h c 2 rfl).trans ((rd_A m c 2).trans (V_main_arg2 m c)),
      ((h c).2 main_arg3 (Pipeline.mem_restRefs_of main_arg3 (by decide) (by decide))).trans (V_main_arg3 m c),
      (Pipeline.RDat.FramePost.arr_in h c 4 rfl).trans ((rd_A m c 4).trans (V_main_arg4 m c)),
      ((h c).2 main_arg5 (Pipeline.mem_restRefs_of main_arg5 (by decide) (by decide))).trans (V_main_arg5 m c)⟩) (run_main m ρ)

/-- The frame: every execution terminates and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.Kernel.Hand

end
-- ==== Proof.Ideal.Cases.lean ====
/- The grid of the fused two-layer graph convolution has 50 points: point 0 also forms the first
   layer's support x·W1; points 0..24 (the first pass) each turn one 400-row panel of the adjacency
   matrix into 400 rows of the second layer's support; points 25..49 (the second pass) each turn
   one panel into 400 rows of the result. Here the three branch conditions of the body and the row
   offsets of its two panel stores are put in closed form over the grid. -/
import proofs.«170562_g43207370998079_cont_8to1_b_1494_6_alg».proof.Proof.Gen.KernelIdeal.Launch
import proofs.«170562_g43207370998079_cont_8to1_b_1494_6_alg».proof.Proof.Gen.KernelIdeal.Skeleton
import proofs.«170562_g43207370998079_cont_8to1_b_1494_6_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The body's first branch: the grid coordinate is zero. -/
abbrev atFirst (i : grid0.Coords) : Prop := (Scalar.cmpi .ne (Scalar.extui (Scalar.cmpi .eq (BitVec.ofNat 32 (i 0).val) 0#32)) 0#32) = 1#1
/-- The body's second branch: the coordinate is below 25 (first pass). -/
abbrev inPass1 (i : grid0.Coords) : Prop := k0_cond2 i = 1#1
/-- The body's third branch: the coordinate is at least 25 (second pass). -/
abbrev inPass2 (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem inPass1_iff : ∀ t : Fin cfg0.N, inPass1 (grid0.coords t) ↔ t.val < 25 :=
  (by decide +kernel : ∀ t : Fin grid0.N, inPass1 (grid0.coords t) ↔ t.val < 25)
theorem inPass2_iff : ∀ t : Fin cfg0.N, inPass2 (grid0.coords t) ↔ 25 ≤ t.val :=
  (by decide +kernel : ∀ t : Fin grid0.N, inPass2 (grid0.coords t) ↔ 25 ≤ t.val)

/-- The panel a point works on: its coordinate modulo 25. -/
def panelOf (t : Fin cfg0.N) : Nat := t.val % 25

/-- The first-pass store goes to rows 400·(t mod 25) onward, all columns. -/
theorem off1_eq : ∀ t : Fin cfg0.N, k0_off1 (grid0.coords t) = ![400 * (t.val % 25), 0] :=
  (by decide +kernel : ∀ t : Fin grid0.N, k0_off1 (grid0.coords t) = ![400 * (t.val % 25), 0])
/-- The second-pass store goes to rows 400·(t mod 25) onward, all columns. -/
theorem off2_eq : ∀ t : Fin cfg0.N, k0_off2 (grid0.coords t) = ![400 * (t.val % 25), 0] :=
  (by decide +kernel : ∀ t : Fin grid0.N, k0_off2 (grid0.coords t) = ![400 * (t.val % 25), 0])

/-- The grid has 50 points. -/
theorem N50 : cfg0.N = 50 := N_0

end Cert.KernelIdeal.Hand

end
-- ==== Proof.Ideal.RunFirst.lean ====
/- The body at the grid's first point. It stores the first layer's support x·W1 into the whole of the
   first scratch buffer, reads it back, and stores 400 rows of the second layer's support into the
   second scratch buffer; the result's staging buffer is not touched. -/
import proofs.«170562_g43207370998079_cont_8to1_b_1494_6_alg».proof.Proof.Ideal.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point's run on any whole memrefs: inputs at their contents, the result's buffer at `y6`
    and handed back at `y6`, the first scratch at anything and handed back with the pieces `LS0`
    written, the second scratch at `xs1` and handed back with the pieces `LS1` written over `xs1`. -/
noncomputable def firstRun (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs1 : Vec F S10000x8 .bf16) :
    (LS0 : List (View.Piece (Elt F) S10000x16 .bf16)) ×' { LS1 : List (View.Piece (Elt F) S10000x8 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexact HS1

end Cert.KernelIdeal.Hand

end
-- ==== Proof.Ideal.RunPass1.lean ====
/- The body at a first-pass point after the first (points 1..24): it reads the first support from the
   first scratch buffer and stores 400 rows of the second support into the second scratch buffer,
   over whatever that buffer held; nothing else changes. -/
import proofs.«170562_g43207370998079_cont_8to1_b_1494_6_alg».proof.Proof.Ideal.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def pass1Run (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) :
    { LS : List (View.Piece (Elt F) S10000x8 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare xs0 ∗ (arg9.view.loc (c : Thread nD τ) ↦[arg9.view.set]{fullShare} arg9.view.writes (Elt F) (harg9.unread xs1) LS)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    iexact HS1

end Cert.KernelIdeal.Hand

end
-- ==== Proof.Ideal.RunPass2.lean ====
/- The body at a second-pass point (points 25..49): it reads the whole second support from the second
   scratch buffer and stores 400 rows of the result into the result's staging buffer, over whatever
   that buffer held; nothing else changes. -/
import proofs.«170562_g43207370998079_cont_8to1_b_1494_6_alg».proof.Proof.Ideal.RunPass1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def pass2Run (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : ¬inPass1 i) (hc2 : inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) :
    { LS : List (View.Piece (Elt F) S10000x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread y6) LS) ∗ owns (c : Thread nD τ) arg8 fullShare xs0 ∗ owns (c : Thread nD τ) arg9 fullShare xs1) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [HS0]
    · iexists _; isplitr; · ipureintro; exact harg8.read_unread _
      iexact HS0
    iexists _; isplitr; · ipureintro; exact harg9.read_unread _
    iexact HS1

end Cert.KernelIdeal.Hand

end
-- ==== Proof.Ideal.Pieces.lean ====
/- What each run's stores leave, read back at an index. A store of 400 whole rows at row offset o,
   read at row r: inside [o, o + 400) it is the stored value at row r - o; outside, the buffer's
   earlier contents. The whole-buffer store of the first point reads back as the stored value. -/
import proofs.«170562_g43207370998079_cont_8to1_b_1494_6_alg».proof.Proof.Ideal.RunPass2
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-! ## A first-pass point after the first -/

theorem pass1_in (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) (o : ℕ) (ho : k0_off1 i = ![o, 0]) (j : S10000x8.Idx) (y : S400x8.Idx)
    (h0 : (j 0).val = o + (y 0).val) (h1 : (j 1).val = (y 1).val) :
    arg9.view.read (Elt F) (arg9.view.writes (Elt F) (harg9.unread xs1) (pass1Run c i arg1 harg1 arg2 harg2 arg3 harg3 arg4 harg4 arg5 harg5 arg6 harg6 arg7 harg7 arg8 harg8 arg9 harg9 hc0 hc1 hc2 x0 x1 x2 x3 x4 x5 y6 xs0 xs1).1) j
      = k0_pay3 x0 xs0 x3 x4 y := by
  unfold pass1Run; dsimp only
  simp only [View.readAt_eq_ld, Memref.IsWhole.read_unread, View.ld_unit_zero (S := S400x10000) hz2, View.ld_unit_zero (S := S10000x16) hz2, View.ld_unit_zero (S := S1x16) hz2, View.ld_unit_zero (S := S16x8) hz2, View.ld_unit_zero (S := S10000x8) hz2, View.ld_unit_zero (S := S1x8) hz2, View.ld_unit_zero (S := S10000x128) hz2, View.ld_unit_zero (S := S128x16) hz2]
  exact View.read_writes_cons_rows_of_mem arg9.view _ _ _ [] j y ho h0 h1

theorem pass1_out (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) (o : ℕ) (ho : k0_off1 i = ![o, 0]) (j : S10000x8.Idx)
    (h : (j 0).val < o ∨ o + 400 ≤ (j 0).val) :
    arg9.view.read (Elt F) (arg9.view.writes (Elt F) (harg9.unread xs1) (pass1Run c i arg1 harg1 arg2 harg2 arg3 harg3 arg4 harg4 arg5 harg5 arg6 harg6 arg7 harg7 arg8 harg8 arg9 harg9 hc0 hc1 hc2 x0 x1 x2 x3 x4 x5 y6 xs0 xs1).1) j = xs1 j := by
  unfold pass1Run; dsimp only
  refine (View.read_writes_cons_rows_of_not_mem arg9.view _ _ _ [] j ho rfl h).trans ?_
  rw [View.writes_nil, harg9.read_unread]

/-! ## A second-pass point -/

theorem pass2_in (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : ¬inPass1 i) (hc2 : inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) (o : ℕ) (ho : k0_off2 i = ![o, 0]) (j : S10000x8.Idx) (y : S400x8.Idx)
    (h0 : (j 0).val = o + (y 0).val) (h1 : (j 1).val = (y 1).val) :
    arg7.view.read (Elt F) (arg7.view.writes (Elt F) (harg7.unread y6) (pass2Run c i arg1 harg1 arg2 harg2 arg3 harg3 arg4 harg4 arg5 harg5 arg6 harg6 arg7 harg7 arg8 harg8 arg9 harg9 hc0 hc1 hc2 x0 x1 x2 x3 x4 x5 y6 xs0 xs1).1) j
      = k0_pay4 x0 xs1 x5 y := by
  unfold pass2Run; dsimp only
  simp only [View.readAt_eq_ld, Memref.IsWhole.read_unread, View.ld_unit_zero (S := S400x10000) hz2, View.ld_unit_zero (S := S10000x16) hz2, View.ld_unit_zero (S := S1x16) hz2, View.ld_unit_zero (S := S16x8) hz2, View.ld_unit_zero (S := S10000x8) hz2, View.ld_unit_zero (S := S1x8) hz2, View.ld_unit_zero (S := S10000x128) hz2, View.ld_unit_zero (S := S128x16) hz2]
  exact View.read_writes_cons_rows_of_mem arg7.view _ _ _ [] j y ho h0 h1

theorem pass2_out (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : ¬atFirst i) (hc1 : ¬inPass1 i) (hc2 : inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs0 : Vec F S10000x16 .bf16) (xs1 : Vec F S10000x8 .bf16) (o : ℕ) (ho : k0_off2 i = ![o, 0]) (j : S10000x8.Idx)
    (h : (j 0).val < o ∨ o + 400 ≤ (j 0).val) :
    arg7.view.read (Elt F) (arg7.view.writes (Elt F) (harg7.unread y6) (pass2Run c i arg1 harg1 arg2 harg2 arg3 harg3 arg4 harg4 arg5 harg5 arg6 harg6 arg7 harg7 arg8 harg8 arg9 harg9 hc0 hc1 hc2 x0 x1 x2 x3 x4 x5 y6 xs0 xs1).1) j = y6 j := by
  unfold pass2Run; dsimp only
  refine (View.read_writes_cons_rows_of_not_mem arg7.view _ _ _ [] j ho rfl h).trans ?_
  rw [View.writes_nil, harg7.read_unread]

/-! ## The first point -/

theorem first_support1 (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs1 : Vec F S10000x8 .bf16) (f : arg8.view.ty.Contents (Elt F)) :
    arg8.view.read (Elt F) (arg8.view.writes (Elt F) f (firstRun c i arg1 harg1 arg2 harg2 arg3 harg3 arg4 harg4 arg5 harg5 arg6 harg6 arg7 harg7 arg8 harg8 arg9 harg9 hc0 hc1 hc2 x0 x1 x2 x3 x4 x5 y6 xs1).1) = k0_pay2 x1 x2 := by
  funext j
  unfold firstRun; dsimp only
  sl_unfold_words
  simp only [View.readAt_eq_ld, Memref.IsWhole.read_unread, View.ld_unit_zero (S := S400x10000) hz2, View.ld_unit_zero (S := S10000x16) hz2, View.ld_unit_zero (S := S1x16) hz2, View.ld_unit_zero (S := S16x8) hz2, View.ld_unit_zero (S := S10000x8) hz2, View.ld_unit_zero (S := S1x8) hz2, View.ld_unit_zero (S := S10000x128) hz2, View.ld_unit_zero (S := S128x16) hz2]
  exact View.read_writes_cons_rows_of_mem arg8.view _ _ _ [] j j rfl (by omega) rfl

theorem first_in (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs1 : Vec F S10000x8 .bf16) (o : ℕ) (ho : k0_off1 i = ![o, 0]) (j : S10000x8.Idx) (y : S400x8.Idx)
    (h0 : (j 0).val = o + (y 0).val) (h1 : (j 1).val = (y 1).val) :
    arg9.view.read (Elt F) (arg9.view.writes (Elt F) (harg9.unread xs1) (firstRun c i arg1 harg1 arg2 harg2 arg3 harg3 arg4 harg4 arg5 harg5 arg6 harg6 arg7 harg7 arg8 harg8 arg9 harg9 hc0 hc1 hc2 x0 x1 x2 x3 x4 x5 y6 xs1).2.1) j
      = k0_pay3 x0 (k0_pay2 x1 x2) x3 x4 y := by
  unfold firstRun; dsimp only
  sl_unfold_words
  simp only [View.readAt_eq_ld, Memref.IsWhole.read_unread, View.ld_unit_zero (S := S400x10000) hz2, View.ld_unit_zero (S := S10000x16) hz2, View.ld_unit_zero (S := S1x16) hz2, View.ld_unit_zero (S := S16x8) hz2, View.ld_unit_zero (S := S10000x8) hz2, View.ld_unit_zero (S := S1x8) hz2, View.ld_unit_zero (S := S10000x128) hz2, View.ld_unit_zero (S := S128x16) hz2]
  rw [View.readCov_unit_zero (S := S10000x16) _ hz2]
  exact View.read_writes_cons_rows_of_mem arg9.view _ _ _ [] j y ho h0 h1

theorem first_out (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S10000x8 .f32) (harg7 : arg7.IsWhole) (arg8 : Memref sig .tc .vmem S10000x16 .bf16) (harg8 : arg8.IsWhole) (arg9 : Memref sig .tc .vmem S10000x8 .bf16) (harg9 : arg9.IsWhole) (hc0 : atFirst i) (hc1 : inPass1 i) (hc2 : ¬inPass2 i)
    (x0 : Vec F S400x10000 .f32) (x1 : Vec F S10000x128 .f32) (x2 : Vec F S128x16 .f32) (x3 : Vec F S1x16 .f32) (x4 : Vec F S16x8 .f32) (x5 : Vec F S1x8 .f32) (y6 : Vec F S10000x8 .f32) (xs1 : Vec F S10000x8 .bf16) (o : ℕ) (ho : k0_off1 i = ![o, 0]) (j : S10000x8.Idx)
    (h : (j 0).val < o ∨ o + 400 ≤ (j 0).val) :
    arg9.view.read (Elt F) (arg9.view.writes (Elt F) (harg9.unread xs1) (firstRun c i arg1 harg1 arg2 harg2 arg3 harg3 arg4 harg4 arg5 harg5 arg6 harg6 arg7 harg7 arg8 harg8 arg9 harg9 hc0 hc1 hc2 x0 x1 x2 x3 x4 x5 y6 xs1).2.1) j = xs1 j := by
  unfold firstRun; dsimp only
  refine (View.read_writes_cons_rows_of_not_mem arg9.view _ _ _ [] j ho rfl h).trans ?_
  rw [View.writes_nil, harg9.read_unread]

end Cert.KernelIdeal.Hand

end
-- ==== Proof.Ideal.Spec.lean ====
/- The two-layer graph convolution as three whole-array functions of the argument arrays, written
   over the kernel body's own arithmetic (its payload terms): the first layer's support x·W1; the
   second layer's support relu(adj·support1 + b1)·W2, whose rows 400p..400p+399 the kernel forms
   from panel p (those rows) of the adjacency matrix; and the result adj·support2 + b2, whose rows
   400p..400p+399 it forms from the same panel. Row r lies in panel r / 400 at position r % 400. -/
import proofs.«170562_g43207370998079_cont_8to1_b_1494_6_alg».proof.Proof.Ideal.Cases
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- Panel `p` of the adjacency matrix: its rows 400p, …, 400p + 399. -/
def panel (adj : Vec F S10000x10000 .f32) (p : Fin 25) : Vec F S400x10000 .f32 :=
  fun y => adj (ix2 (⟨400 * p.val + (y 0).val, by have := idx2_lt0 y; have := p.isLt; omega⟩ : Fin 10000) (y 1))

/-- The panel of a row and the row's place in it. -/
def panelIx (r : Fin 10000) : Fin 25 := ⟨r.val / 400, by have := r.isLt; omega⟩
def inPanel (r : Fin 10000) : Fin 400 := ⟨r.val % 400, Nat.mod_lt _ (by decide)⟩

/-- The first layer's support, x·W1. -/
def support1 (x : Vec F S10000x128 .f32) (W1 : Vec F S128x16 .f32) : Vec F S10000x16 .bf16 := k0_pay2 x W1

/-- The second layer's support: row r from the panel that holds row r. -/
def support2 (adj : Vec F S10000x10000 .f32) (x : Vec F S10000x128 .f32) (W1 : Vec F S128x16 .f32) (b1 : Vec F S1x16 .f32)
    (W2 : Vec F S16x8 .f32) : Vec F S10000x8 .bf16 :=
  fun j => k0_pay3 (panel adj (panelIx (j 0))) (support1 x W1) b1 W2 (ix2 (inPanel (j 0)) (j 1))

/-- The result: row r from the panel that holds row r and the whole second support. -/
def result (adj : Vec F S10000x10000 .f32) (x : Vec F S10000x128 .f32) (W1 : Vec F S128x16 .f32) (b1 : Vec F S1x16 .f32)
    (W2 : Vec F S16x8 .f32) (b2 : Vec F S1x8 .f32) : Vec F S10000x8 .f32 :=
  fun j => k0_pay4 (panel adj (panelIx (j 0))) (support2 adj x W1 b1 W2) b2 (ix2 (inPanel (j 0)) (j 1))

/-- Row 400p + q of the second support is position q of what panel p yields. -/
theorem support2_row (adj : Vec F S10000x10000 .f32) (x : Vec F S10000x128 .f32) (W1 : Vec F S128x16 .f32) (b1 : Vec F S1x16 .f32)
    (W2 : Vec F S16x8 .f32) (p : Fin 25) (j : S10000x8.Idx) (y : S400x8.Idx)
    (h0 : (j 0).val = 400 * p.val + (y 0).val) (h1 : (j 1).val = (y 1).val) :
    support2 adj x W1 b1 W2 j = k0_pay3 (panel adj p) (support1 x W1) b1 W2 y := by
  have hy := idx2_lt0 y
  have hp : panelIx (j 0) = p := Fin.ext (by show (j 0).val / 400 = p.val; omega)
  have hq : (ix2 (inPanel (j 0)) (j 1) : S400x8.Idx) = y := by
    funext a; match a with
    | ⟨0, _⟩ => exact Fin.ext (by show (j 0).val % 400 = (y 0).val; omega)
    | ⟨1, _⟩ => exact Fin.ext h1
  unfold support2; rw [hp, hq]

/-- Row 400p + q of the result is position q of what panel p yields. -/
theorem result_row (adj : Vec F S10000x10000 .f32) (x : Vec F S10000x128 .f32) (W1 : Vec F S128x16 .f32) (b1 : Vec F S1x16 .f32)
    (W2 : Vec F S16x8 .f32) (b2 : Vec F S1x8 .f32) (p : Fin 25) (j : S10000x8.Idx) (y : S400x8.Idx)
    (h0 : (j 0).val = 400 * p.val + (y 0).val) (h1 : (j 1).val = (y 1).val) :
    result adj x W1 b1 W2 b2 j = k0_pay4 (panel adj p) (support2 adj x W1 b1 W2) b2 y := by
  have hy := idx2_lt0 y
  have hp : panelIx (j 0) = p := Fin.ext (by show (j 0).val / 400 = p.val; omega)
  have hq : (ix2 (inPanel (j 0)) (j 1) : S400x8.Idx) = y := by
    funext a; match a with
    | ⟨0, _⟩ => exact Fin.ext (by show (j 0).val % 400 = (y 0).val; omega)
    | ⟨1, _⟩ => exact Fin.ext h1
  unfold result; rw [hp, hq]

end Cert.KernelIdeal.Hand

end
-- ==== Proof.Ideal.Data.lean ====
/- The proof data of the pipelined kernel. The arrays as the region finds them; each window's block
   as a function of them (the adjacency window's block at point t is panel t mod 25, every other
   input window's block is its whole array); what the two scratch buffers hold before point n (the
   first support from point 1 on; rows below 400·min(n, 25) of the second support); and how a
   second-pass point changes the result's staging buffer: rows 400·(t mod 25) … +399 become the
   result's rows, every other row stays. -/
import proofs.«170562_g43207370998079_cont_8to1_b_1494_6_alg».proof.Proof.Ideal.Spec
import proofs.«170562_g43207370998079_cont_8to1_b_1494_6_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The memrefs the body is called with -/

abbrev stg0 (t : Fin cfg0.N) : Memref sig .tc .vmem S400x10000 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S10000x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x16 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x16 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S16x8 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x8 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S10000x8 .f32 := win0_6.stage (cfg0.slots t 6)
abbrev hstg6 (t : Fin cfg0.N) : (stg6 t).IsWhole := hstage0_6 ((cfg0.slots t 6).cast nbuf0_6)
abbrev sc0 : Memref sig .tc .vmem S10000x16 .bf16 := Memref.whole cc0_scratch0
abbrev sc1 : Memref sig .tc .vmem S10000x8 .bf16 := Memref.whole cc0_scratch1

/-! ## The arrays at the region's entry, and the three closed forms over them -/

abbrev adjA (c : Dev nD) : Vec F S10000x10000 .f32 := V m c main_arg1
abbrev xA (c : Dev nD) : Vec F S10000x128 .f32 := V m c main_arg0
abbrev w1A (c : Dev nD) : Vec F S128x16 .f32 := V m c main_arg2
abbrev b1A (c : Dev nD) : Vec F S1x16 .f32 := V m c main_call0_v0
abbrev w2A (c : Dev nD) : Vec F S16x8 .f32 := V m c main_arg4
abbrev b2A (c : Dev nD) : Vec F S1x8 .f32 := V m c main_call0_v1

def sup1 (c : Dev nD) : Vec F S10000x16 .bf16 := support1 (xA m c) (w1A m c)
def sup2 (c : Dev nD) : Vec F S10000x8 .bf16 := support2 (adjA m c) (xA m c) (w1A m c) (b1A m c) (w2A m c)
def res (c : Dev nD) : Vec F S10000x8 .f32 := result (adjA m c) (xA m c) (w1A m c) (b1A m c) (w2A m c) (b2A m c)

/-! ## The windows' blocks -/

theorem adjIndex : ∀ t : Fin cfg0.N, win0_0.index t 0 = t.val % 25 ∧ win0_0.index t 1 = 0 :=
  (by decide +kernel : ∀ t : Fin grid0.N, win0_0.index t 0 = t.val % 25 ∧ win0_0.index t 1 = 0)

/-- The panel a point works on. -/
def pan (t : Fin cfg0.N) : Fin 25 := ⟨t.val % 25, Nat.mod_lt _ (by decide)⟩

theorem blk0 (c : Dev nD) (t : Fin cfg0.N) : (iblk m c 0 t : Vec F S400x10000 .f32) = panel (adjA m c) (pan t) := by
  funext y
  unfold iblk panel
  rw [View.read_apply]
  show V m c main_arg1 _ = V m c main_arg1 _
  congr 1
  funext a
  apply Fin.ext
  match a with
  | ⟨0, _⟩ => show win0_0.index t 0 * 400 + 1 * (y 0).val = 400 * (t.val % 25) + (y 0).val; rw [(adjIndex t).1]; omega
  | ⟨1, _⟩ => show win0_0.index t 1 * 10000 + 1 * (y 1).val = (y 1).val; rw [(adjIndex t).2]; omega

theorem blk1 (c : Dev nD) (t : Fin cfg0.N) : (iblk m c 1 t : Vec F S10000x128 .f32) = xA m c := by
  funext y; unfold iblk; rw [View.read_apply]; show V m c main_arg0 _ = V m c main_arg0 _
  congr 1; funext a; apply Fin.ext
  match a with
  | ⟨0, _⟩ => show 0 * 10000 + 1 * (y 0).val = (y 0).val; omega
  | ⟨1, _⟩ => show 0 * 128 + 1 * (y 1).val = (y 1).val; omega
theorem blk2 (c : Dev nD) (t : Fin cfg0.N) : (iblk m c 2 t : Vec F S128x16 .f32) = w1A m c := by
  funext y; unfold iblk; rw [View.read_apply]; show V m c main_arg2 _ = V m c main_arg2 _
  congr 1; funext a; apply Fin.ext
  match a with
  | ⟨0, _⟩ => show 0 * 128 + 1 * (y 0).val = (y 0).val; omega
  | ⟨1, _⟩ => show 0 * 16 + 1 * (y 1).val = (y 1).val; omega
theorem blk3 (c : Dev nD) (t : Fin cfg0.N) : (iblk m c 3 t : Vec F S1x16 .f32) = b1A m c := by
  funext y; unfold iblk; rw [View.read_apply]; show V m c main_call0_v0 _ = V m c main_call0_v0 _
  congr 1; funext a; apply Fin.ext
  match a with
  | ⟨0, _⟩ => show 0 * 1 + 1 * (y 0).val = (y 0).val; omega
  | ⟨1, _⟩ => show 0 * 16 + 1 * (y 1).val = (y 1).val; omega
theorem blk4 (c : Dev nD) (t : Fin cfg0.N) : (iblk m c 4 t : Vec F S16x8 .f32) = w2A m c := by
  funext y; unfold iblk; rw [View.read_apply]; show V m c main_arg4 _ = V m c main_arg4 _
  congr 1; funext a; apply Fin.ext
  match a with
  | ⟨0, _⟩ => show 0 * 16 + 1 * (y 0).val = (y 0).val; omega
  | ⟨1, _⟩ => show 0 * 8 + 1 * (y 1).val = (y 1).val; omega
theorem blk5 (c : Dev nD) (t : Fin cfg0.N) : (iblk m c 5 t : Vec F S1x8 .f32) = b2A m c := by
  funext y; unfold iblk; rw [View.read_apply]; show V m c main_call0_v1 _ = V m c main_call0_v1 _
  congr 1; funext a; apply Fin.ext
  match a with
  | ⟨0, _⟩ => show 0 * 1 + 1 * (y 0).val = (y 0).val; omega
  | ⟨1, _⟩ => show 0 * 8 + 1 * (y 1).val = (y 1).val; omega

/-! ## The invariant between points -/

/-- Rows below 400·min(n, 25) of `d` are the second support's. -/
def sup2Upto (c : Dev nD) (n : ℕ) (d : Vec F S10000x8 .bf16) : Prop :=
  ∀ j : S10000x8.Idx, (j 0).val < 400 * min n 25 → d j = sup2 m c j

/-- The first scratch buffer before point `n`: anything before the first point, the first support afterwards. -/
def sc0At (c : Dev nD) (n : ℕ) : sProp 𝕄 :=
  if n = 0 then iprop(∃ d, owns (c : Thread nD τ) sc0 fullShare d) else owns (c : Thread nD τ) sc0 fullShare (sup1 m c)

/-- The invariant before point `n`. -/
def PhiS (c : Dev nD) (n : ℕ) : sProp 𝕄 :=
  iprop(iprop(sc0At m c n ∗ (∃ d, ⌜sup2Upto m c n d⌝ ∗ owns (c : Thread nD τ) sc1 fullShare d)) ∗ (∃ r, prngReg c r))

/-- The class invariant of the launch: both scratch buffers at anything, the generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The proof data -/

/-- Exact data for the inputs: each input's buffer holds its block after the body as before it. The
    result's window is constrained by a relation instead (`outStep`). -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val
  q _ := fullShare
  owed _ := 0

/-- What a point does to the result's staging buffer: a second-pass point (t ≥ 25) overwrites rows
    400·(t mod 25) … +399 with the result's rows; every other row, and every row at a first-pass
    point, is left as found. -/
def outStep (c : Dev nD) (t : Fin cfg0.N) (Y X : Vec F S10000x8 .f32) : Prop :=
  ∀ j : S10000x8.Idx, X j = if 25 ≤ t.val ∧ 400 * (t.val % 25) ≤ (j 0).val ∧ (j 0).val < 400 * (t.val % 25) + 400 then res m c j else Y j

def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => some (outStep m c)

/-- The relational proof data: the exact data read relationally, the result's window under `outStep`. -/
def rd (c : Dev nD) : RDat τ (Elt F) Unit ℕ (UR sig nD τ) ℕ cfg0 c := (dat m c).toR.override (ovr m c)

theorem rd_A (c : Dev nD) (w : Fin cfg0.W) : (rd m c).A w = V m c (Pipeline.arrRef spec0 w) := rfl

end Cert.KernelIdeal.Hand

end
-- ==== Proof.Ideal.Body.lean ====
/- The body obligation. At every point the body, handed the inputs' blocks, the result's staging
   buffer at any contents and the invariant before the point, runs to the invariant after the
   point with the inputs as found and the result's buffer changed as `outStep` says. Three kinds
   of point: the first (it also forms the first support), the other first-pass points, and the
   second-pass points. -/
import proofs.«170562_g43207370998079_cont_8to1_b_1494_6_alg».proof.Proof.Ideal.Pieces
import proofs.«170562_g43207370998079_cont_8to1_b_1494_6_alg».proof.Proof.Ideal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A row's position inside the 400 rows that start at row `o`. -/
def posIn (o : ℕ) (j : S10000x8.Idx) (h : o ≤ (j 0).val ∧ (j 0).val < o + 400) : S400x8.Idx :=
  ix2 (⟨(j 0).val - o, by omega⟩ : Fin 400) (j 1)

theorem posIn_0 (o : ℕ) (j : S10000x8.Idx) (h : o ≤ (j 0).val ∧ (j 0).val < o + 400) : (j 0).val = o + ((posIn o j h) 0).val := by
  show (j 0).val = o + ((j 0).val - o); omega
theorem posIn_1 (o : ℕ) (j : S10000x8.Idx) (h : o ≤ (j 0).val ∧ (j 0).val < o + 400) : (j 1).val = ((posIn o j h) 1).val := rfl

/-- What the body is called with at point `t`, the result's buffer at `Y6`. -/
def bodyPre (c : Dev nD) (t : Fin cfg0.N) (Y6 : Vec F S10000x8 .f32) : sProp 𝕄 :=
  iprop(PhiS m c t.val ∗ (rd m c).owesAt () t.castSucc
    ∗ owns (c : Thread nD τ) (stg0 t) fullShare (panel (adjA m c) (pan t)) ∗ owns (c : Thread nD τ) (stg1 t) fullShare (xA m c) ∗ owns (c : Thread nD τ) (stg2 t) fullShare (w1A m c) ∗ owns (c : Thread nD τ) (stg3 t) fullShare (b1A m c) ∗ owns (c : Thread nD τ) (stg4 t) fullShare (w2A m c) ∗ owns (c : Thread nD τ) (stg5 t) fullShare (b2A m c)
    ∗ owns (c : Thread nD τ) (stg6 t) fullShare Y6)

/-- and what it returns. -/
def bodyPost (c : Dev nD) (t : Fin cfg0.N) (Y6 : Vec F S10000x8 .f32) : sProp 𝕄 :=
  iprop(PhiS m c (t.val + 1) ∗ (rd m c).owesAt () t.succ
    ∗ owns (c : Thread nD τ) (stg0 t) fullShare (panel (adjA m c) (pan t)) ∗ owns (c : Thread nD τ) (stg1 t) fullShare (xA m c) ∗ owns (c : Thread nD τ) (stg2 t) fullShare (w1A m c) ∗ owns (c : Thread nD τ) (stg3 t) fullShare (b1A m c) ∗ owns (c : Thread nD τ) (stg4 t) fullShare (w2A m c) ∗ owns (c : Thread nD τ) (stg5 t) fullShare (b2A m c)
    ∗ (∃ X, ⌜outStep m c t Y6 X⌝ ∗ owns (c : Thread nD τ) (stg6 t) fullShare X))

set_option maxHeartbeats 4000000 in
theorem sound_body (c : Dev nD) (t : Fin cfg0.N) (Y6 : Vec F S10000x8 .f32) :
    bodyPre m c t Y6 ⊢ wp frame (wpE (defs₀ (F := F)) Variants.none c none) Set.univ (bodyAt0 t) (fun _ => bodyPost m c t Y6) := by
  unfold bodyPre bodyPost bodyAt0
  rw [show (rd m c).owesAt () t.succ = (rd m c).owesAt () t.castSucc from rfl]
  have hN : t.val < 50 := lt_of_lt_of_eq t.isLt N50
  unfold PhiS
  by_cases hz : t.val = 0
  · -- the first point
    have hc0 : atFirst (grid0.coords t) := (atFirst_iff t).mpr hz
    have hc1 : inPass1 (grid0.coords t) := (inPass1_iff t).mpr (by omega)
    have hc2 : ¬inPass2 (grid0.coords t) := fun h => by have := (inPass2_iff t).mp h; omega
    have ho : k0_off1 (grid0.coords t) = ![0, 0] := by rw [off1_eq t, hz]
    rw [show sc0At m c t.val = iprop(∃ d, owns (c : Thread nD τ) sc0 fullShare d) from by unfold sc0At; rw [if_pos hz]]
    rw [show sc0At m c (t.val + 1) = owns (c : Thread nD τ) sc0 fullShare (sup1 m c) from by unfold sc0At; rw [if_neg (Nat.succ_ne_zero _)]]
    iintro ⟨⟨⟨HS0, ⟨%d1, -, HS1⟩⟩, Hg⟩, Ho, H0, H1, H2, H3, H4, H5, H6⟩
    iapply ((firstRun c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 d1).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%f, HS0⟩, HS1⟩
    isplitl [HS0 HS1 Hg]
    · isplitl [HS0 HS1]
      · isplitl [HS0]
        · unfold owns; iexists _; isplitr
          swap; · iexact HS0
          ipureintro
          exact first_support1 c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 d1 f
        · iexists _; isplitr
          swap
          · unfold owns; iexists _; isplitr
            swap; · iexact HS1
            ipureintro; rfl
          ipureintro
          intro j hj
          have hj' : 0 ≤ (j 0).val ∧ (j 0).val < 0 + 400 := by
            have : min (t.val + 1) 25 = 1 := by omega
            rw [this] at hj; omega
          refine (first_in c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 d1 0 ho j (posIn 0 j hj') (posIn_0 0 j hj') (posIn_1 0 j hj')).trans ?_
          unfold sup2
          refine (support2_row (adjA m c) (xA m c) (w1A m c) (b1A m c) (w2A m c) (pan t) j (posIn 0 j hj') ?_ (posIn_1 0 j hj')).symm
          have := posIn_0 0 j hj'
          show (j 0).val = 400 * (t.val % 25) + _
          rw [hz]; omega
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr
    swap; · iexact H6
    ipureintro
    intro j
    rw [if_neg (by omega)]
  · by_cases h1 : t.val < 25
    · -- a first-pass point after the first
      have hc0 : ¬atFirst (grid0.coords t) := fun h => hz ((atFirst_iff t).mp h)
      have hc1 : inPass1 (grid0.coords t) := (inPass1_iff t).mpr h1
      have hc2 : ¬inPass2 (grid0.coords t) := fun h => by have := (inPass2_iff t).mp h; omega
      have hmod : t.val % 25 = t.val := Nat.mod_eq_of_lt h1
      have ho : k0_off1 (grid0.coords t) = ![400 * t.val, 0] := by rw [off1_eq t, hmod]
      rw [show sc0At m c t.val = owns (c : Thread nD τ) sc0 fullShare (sup1 m c) from by unfold sc0At; rw [if_neg hz]]
      rw [show sc0At m c (t.val + 1) = owns (c : Thread nD τ) sc0 fullShare (sup1 m c) from by unfold sc0At; rw [if_neg (Nat.succ_ne_zero _)]]
      iintro ⟨⟨⟨HS0, ⟨%d1, %hd1, HS1⟩⟩, Hg⟩, Ho, H0, H1, H2, H3, H4, H5, H6⟩
      iapply ((pass1Run c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) d1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            intro j hj
            have hmin : min (t.val + 1) 25 = t.val + 1 := by omega
            have hmin' : min t.val 25 = t.val := by omega
            rw [hmin] at hj
            by_cases hin : 400 * t.val ≤ (j 0).val
            · have hj' : 400 * t.val ≤ (j 0).val ∧ (j 0).val < 400 * t.val + 400 := by omega
              refine (pass1_in c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) d1 (400 * t.val) ho j (posIn _ j hj') (posIn_0 _ j hj') (posIn_1 _ j hj')).trans ?_
              unfold sup2 sup1
              refine (support2_row (adjA m c) (xA m c) (w1A m c) (b1A m c) (w2A m c) (pan t) j (posIn _ j hj') ?_ (posIn_1 _ j hj')).symm
              have := posIn_0 _ j hj'
              show (j 0).val = 400 * (t.val % 25) + _
              rw [hmod]; exact this
            · refine (pass1_out c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) d1 (400 * t.val) ho j (by omega)).trans ?_
              exact hd1 j (by rw [hmin']; omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; isplitr
      swap; · iexact H6
      ipureintro
      intro j
      rw [if_neg (by omega)]
    · -- a second-pass point
      have h2 : 25 ≤ t.val := by omega
      have hc0 : ¬atFirst (grid0.coords t) := fun h => hz ((atFirst_iff t).mp h)
      have hc1 : ¬inPass1 (grid0.coords t) := fun h => h1 ((inPass1_iff t).mp h)
      have hc2 : inPass2 (grid0.coords t) := (inPass2_iff t).mpr h2
      have ho : k0_off2 (grid0.coords t) = ![400 * (t.val % 25), 0] := off2_eq t
      rw [show sc0At m c t.val = owns (c : Thread nD τ) sc0 fullShare (sup1 m c) from by unfold sc0At; rw [if_neg hz]]
      rw [show sc0At m c (t.val + 1) = owns (c : Thread nD τ) sc0 fullShare (sup1 m c) from by unfold sc0At; rw [if_neg (Nat.succ_ne_zero _)]]
      iintro ⟨⟨⟨HS0, ⟨%d1, %hd1, HS1⟩⟩, Hg⟩, Ho, H0, H1, H2, H3, H4, H5, H6⟩
      have hall : d1 = sup2 m c := funext fun j => hd1 j (by
        have := idx2_lt0 j
        have : min t.val 25 = 25 := by omega
        rw [this]; omega)
      subst hall
      iapply ((pass2Run c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) (sup2 m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists _; isplitr
            swap; · iexact HS1
            ipureintro
            intro j _
            rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; isplitr
      swap
      · unfold owns; iexists _; isplitr
        swap; · iexact H6
        ipureintro; rfl
      ipureintro
      intro j
      by_cases hin : 400 * (t.val % 25) ≤ (j 0).val ∧ (j 0).val < 400 * (t.val % 25) + 400
      · rw [if_pos ⟨h2, hin⟩]
        refine (pass2_in c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) (sup2 m c) (400 * (t.val % 25)) ho j (posIn _ j hin) (posIn_0 _ j hin) (posIn_1 _ j hin)).trans ?_
        unfold res sup2
        exact (result_row (adjA m c) (xA m c) (w1A m c) (b1A m c) (w2A m c) (b2A m c) (pan t) j (posIn _ j hin) (posIn_0 _ j hin) (posIn_1 _ j hin)).symm
      · rw [if_neg (fun h => hin h.2)]
        exact pass2_out c (grid0.coords t) (stg0 t) (hstg0 t) (stg1 t) (hstg1 t) (stg2 t) (hstg2 t) (stg3 t) (hstg3 t) (stg4 t) (hstg4 t) (stg5 t) (hstg5 t) (stg6 t) (hstg6 t) sc0 (Memref.isWhole_whole _) sc1 (Memref.isWhole_whole _) hc0 hc1 hc2 (panel (adjA m c) (pan t)) (xA m c) (w1A m c) (b1A m c) (w2A m c) (b2A m c) Y6 (sup1 m c) (sup2 m c) (400 * (t.val % 25)) ho j (by omega)

end Cert.KernelIdeal.Hand

end
-- ==== Proof.Ideal.Launch.lean ====
/- The launch. Each input window's buffer holds its block at every point, so the body obligation of
   the relational proof data follows from the body's triple; the launch theorem then gives the run:
   the argument arrays end unchanged, and the result array ends at contents reachable by the
   write-back of the last point. -/
import proofs.«170562_g43207370998079_cont_8to1_b_1494_6_alg».proof.Proof.Ideal.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## What the body finds in, and leaves in, the inputs' buffers -/

theorem finds0 (c : Dev nD) (t : Fin cfg0.N) (Y : (cfg0.win 0).block.Idx → Elt F (cfg0.win 0).elt) (h : (rd m c).Finds 0 t Y) :
    Y = (panel (adjA m c) (pan t)) := by
  obtain ⟨d, hd⟩ := (dat m c).toR_finds 0 t Y (((dat m c).toR.override_finds (ovr := ovr m c) (w := 0) rfl t Y).mp h)
  rw [hd, before0_0_of m (dat m c) rfl (fun _ => rfl) t d]; exact blk0 m c t
theorem after0 (c : Dev nD) (t : Fin cfg0.N) (Y : (cfg0.win 0).block.Idx → Elt F (cfg0.win 0).elt) :
    (rd m c).after 0 t Y (panel (adjA m c) (pan t)) := by
  rw [show (rd m c).after 0 = (dat m c).toR.after 0 from (dat m c).toR.override_after_of_eq_none rfl]
  show (dat m c).Leaves 0 t _
  rw [Dat.Leaves.live_iff _ (.inl rfl)]
  exact (blk0 m c t).symm
theorem finds1 (c : Dev nD) (t : Fin cfg0.N) (Y : (cfg0.win 1).block.Idx → Elt F (cfg0.win 1).elt) (h : (rd m c).Finds 1 t Y) :
    Y = (xA m c) := by
  obtain ⟨d, hd⟩ := (dat m c).toR_finds 1 t Y (((dat m c).toR.override_finds (ovr := ovr m c) (w := 1) rfl t Y).mp h)
  rw [hd, before0_1_of m (dat m c) rfl (fun _ => rfl) t d]; exact blk1 m c t
theorem after1 (c : Dev nD) (t : Fin cfg0.N) (Y : (cfg0.win 1).block.Idx → Elt F (cfg0.win 1).elt) :
    (rd m c).after 1 t Y (xA m c) := by
  rw [show (rd m c).after 1 = (dat m c).toR.after 1 from (dat m c).toR.override_after_of_eq_none rfl]
  show (dat m c).Leaves 1 t _
  rw [Dat.Leaves.live_iff _ (.inl rfl)]
  exact (blk1 m c t).symm
theorem finds2 (c : Dev nD) (t : Fin cfg0.N) (Y : (cfg0.win 2).block.Idx → Elt F (cfg0.win 2).elt) (h : (rd m c).Finds 2 t Y) :
    Y = (w1A m c) := by
  obtain ⟨d, hd⟩ := (dat m c).toR_finds 2 t Y (((dat m c).toR.override_finds (ovr := ovr m c) (w := 2) rfl t Y).mp h)
  rw [hd, before0_2_of m (dat m c) rfl (fun _ => rfl) t d]; exact blk2 m c t
theorem after2 (c : Dev nD) (t : Fin cfg0.N) (Y : (cfg0.win 2).block.Idx → Elt F (cfg0.win 2).elt) :
    (rd m c).after 2 t Y (w1A m c) := by
  rw [show (rd m c).after 2 = (dat m c).toR.after 2 from (dat m c).toR.override_after_of_eq_none rfl]
  show (dat m c).Leaves 2 t _
  rw [Dat.Leaves.live_iff _ (.inl rfl)]
  exact (blk2 m c t).symm
theorem finds3 (c : Dev nD) (t : Fin cfg0.N) (Y : (cfg0.win 3).block.Idx → Elt F (cfg0.win 3).elt) (h : (rd m c).Finds 3 t Y) :
    Y = (b1A m c) := by
  obtain ⟨d, hd⟩ := (dat m c).toR_finds 3 t Y (((dat m c).toR.override_finds (ovr := ovr m c) (w := 3) rfl t Y).mp h)
  rw [hd, before0_3_of m (dat m c) rfl (fun _ => rfl) t d]; exact blk3 m c t
theorem after3 (c : Dev nD) (t : Fin cfg0.N) (Y : (cfg0.win 3).block.Idx → Elt F (cfg0.win 3).elt) :
    (rd m c).after 3 t Y (b1A m c) := by
  rw [show (rd m c).after 3 = (dat m c).toR.after 3 from (dat m c).toR.override_after_of_eq_none rfl]
  show (dat m c).Leaves 3 t _
  rw [Dat.Leaves.live_iff _ (.inl rfl)]
  exact (blk3 m c t).symm
theorem finds4 (c : Dev nD) (t : Fin cfg0.N) (Y : (cfg0.win 4).block.Idx → Elt F (cfg0.win 4).elt) (h : (rd m c).Finds 4 t Y) :
    Y = (w2A m c) := by
  obtain ⟨d, hd⟩ := (dat m c).toR_finds 4 t Y (((dat m c).toR.override_finds (ovr := ovr m c) (w := 4) rfl t Y).mp h)
  rw [hd, before0_4_of m (dat m c) rfl (fun _ => rfl) t d]; exact blk4 m c t
theorem after4 (c : Dev nD) (t : Fin cfg0.N) (Y : (cfg0.win 4).block.Idx → Elt F (cfg0.win 4).elt) :
    (rd m c).after 4 t Y (w2A m c) := by
  rw [show (rd m c).after 4 = (dat m c).toR.after 4 from (dat m c).toR.override_after_of_eq_none rfl]
  show (dat m c).Leaves 4 t _
  rw [Dat.Leaves.live_iff _ (.inl rfl)]
  exact (blk4 m c t).symm
theorem finds5 (c : Dev nD) (t : Fin cfg0.N) (Y : (cfg0.win 5).block.Idx → Elt F (cfg0.win 5).elt) (h : (rd m c).Finds 5 t Y) :
    Y = (b2A m c) := by
  obtain ⟨d, hd⟩ := (dat m c).toR_finds 5 t Y (((dat m c).toR.override_finds (ovr := ovr m c) (w := 5) rfl t Y).mp h)
  rw [hd, before0_5_of m (dat m c) rfl (fun _ => rfl) t d]; exact blk5 m c t
theorem after5 (c : Dev nD) (t : Fin cfg0.N) (Y : (cfg0.win 5).block.Idx → Elt F (cfg0.win 5).elt) :
    (rd m c).after 5 t Y (b2A m c) := by
  rw [show (rd m c).after 5 = (dat m c).toR.after 5 from (dat m c).toR.override_after_of_eq_none rfl]
  show (dat m c).Leaves 5 t _
  rw [Dat.Leaves.live_iff _ (.inl rfl)]
  exact (blk5 m c t).symm

theorem after6 (c : Dev nD) (t : Fin cfg0.N) (Y X : (cfg0.win 6).block.Idx → Elt F (cfg0.win 6).elt) :
    (rd m c).after 6 t Y X ↔ outStep m c t Y X := by
  rw [show (rd m c).after 6 = outStep m c from (dat m c).toR.override_after_of_eq_some rfl]

/-! ## The body obligation -/

theorem body_obligation (c : Dev nD) : (rd m c).BodyObligation (defs₀ (F := F)) Variants.none () Set.univ := fun t Y hY => by
  rw [bigSep_W0, bigSep_W0]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  rw [show (rd m c).Φ t.succ = PhiS m c (t.val + 1) from rfl]
  refine (sound_body m c t (Y 6)).trans (wp_mono _ _ _ fun _ => ?_)
  unfold bodyPost
  iintro ⟨HΦ, Ho, H0, H1, H2, H3, H4, H5, ⟨%X, %hX, H6⟩⟩
  isplitl [HΦ]; · iexact HΦ
  isplitl [Ho]; · iexact Ho
  isplitl [H0]
  · iexists _; isplitr; · ipureintro; exact after0 m c t _
    iexact H0
  isplitl [H1]
  · iexists _; isplitr; · ipureintro; exact after1 m c t _
    iexact H1
  isplitl [H2]
  · iexists _; isplitr; · ipureintro; exact after2 m c t _
    iexact H2
  isplitl [H3]
  · iexists _; isplitr; · ipureintro; exact after3 m c t _
    iexact H3
  isplitl [H4]
  · iexists _; isplitr; · ipureintro; exact after4 m c t _
    iexact H4
  isplitl [H5]
  · iexists _; isplitr; · ipureintro; exact after5 m c t _
    iexact H5
  iexists X; isplitr; · ipureintro; exact (after6 m c t (Y 6) X).mpr hX
  iexact H6

/-! ## Into and out of the invariant -/

theorem hin (c : Dev nD) : Pipeline.ΦA spec0 c ⊢ (rd m c).Φ 0 := by
  show _ ⊢ PhiS m c 0
  rw [PhiA_eq]; unfold PhiS sc0At; rw [if_pos rfl]
  iintro ⟨⟨HS0, ⟨%d, HS1⟩⟩, Hg⟩
  isplitl [HS0 HS1]
  · isplitl [HS0]; · iexact HS0
    iexists d; isplitr
    · ipureintro; intro j hj; exact absurd hj (by simp)
    iexact HS1
  iexact Hg

theorem hout (c : Dev nD) : (rd m c).Φ (Fin.last cfg0.N) ⊢ Pipeline.ΦA spec0 c := by
  show PhiS m c (Fin.last cfg0.N).val ⊢ _
  rw [PhiA_eq]; unfold PhiS sc0At
  rw [if_neg (by rw [Fin.val_last, N50]; decide)]
  iintro ⟨⟨HS0, ⟨%d, -, HS1⟩⟩, Hg⟩
  isplitl [HS0 HS1]
  · isplitl [HS0]; · iexists _; iexact HS0
    iexists d; iexact HS1
  iexact Hg

/-! ## The run -/

set_option backward.isDefEq.respectTransparency.types false in
theorem run_main : θ_run defs (onTc (τ := τ) (main (F := F))) (s₀ m ρ) (Pipeline.RDat.FramePost (cfgs 0) (rd m) (V m)) :=
  Pipeline.RDat.θ_run_frame_track cfgs (0 : Fin 1) launch0 defs₀ Variants.none (rd m) m ρ main
    (hbody := body_obligation m) (hshare := fun c => (rd m c).share_full fun _ => rfl)
    (howed := fun _ _ => rfl) (V := V m) (hmain := hmain m Variants.none) (hA := rd_A m) (hin := hin m) (hout := hout m)

end Cert.KernelIdeal.Hand

end
-- ==== Proof.Ideal.Final.lean ====
/- The result array after the run. By induction over the points the result's staging buffer holds
   the result's rows 0 … 400·(t − 25) − 1 before second-pass point t; so what the last point leaves
   there is the whole result, and that is what its write-back, the only one, puts in the array. -/
import proofs.«170562_g43207370998079_cont_8to1_b_1494_6_alg».proof.Proof.Ideal.Launch
import proofs.«170562_g43207370998079_cont_8to1_b_1494_6_alg».proof.Proof.LibRelArr

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The result array after the run -/

theorem fetch6 : ∀ t : Fin cfg0.N, (cfg0.win 6).fetch t = false :=
  (by decide +kernel : ∀ t : Fin grid0.N, win0_6.fetch t = false)

theorem noFlush (n : ℕ) (hn : n < cfg0.N) (h : n < 49) : (cfg0.win 6).flush ⟨n, hn⟩ = false := by
  cases hf : (cfg0.win 6).flush ⟨n, hn⟩
  · rfl
  · exfalso
    have := (flush0_6 ⟨n, hn⟩).mp hf
    have h2 : n % 50 = 49 := this
    omega

/-- Before second-pass point n the result's staging buffer holds the result's rows below 400·(n − 25). -/
theorem finds_rows (c : Dev nD) : ∀ (n : ℕ) (hn : n < cfg0.N) (Y : (cfg0.win 6).block.Idx → Elt F (cfg0.win 6).elt),
    (rd m c).Finds 6 ⟨n, hn⟩ Y → ∀ j : S10000x8.Idx, 25 ≤ n → (j 0).val < 400 * (n - 25) → (Y : Vec F S10000x8 .f32) j = res m c j
  | 0, _, _, _, _, h25, _ => absurd h25 (by omega)
  | n + 1, hn, Y, hY, j, h25, hj => by
    have hN : n + 1 < 50 := lt_of_lt_of_eq hn N50
    have hn' : n < cfg0.N := Nat.lt_of_succ_lt hn
    have hY1 := ((rd m c).finds_of_pos (fetch6 ⟨n + 1, hn⟩) (Nat.succ_ne_zero n) Y).mp hY
    have hY2 : (cfg0.win 6).flush ⟨n, hn'⟩ = true ∨ (rd m c).Leaves 6 ⟨n, hn'⟩ Y := hY1
    rcases hY2 with hfl | ⟨Y', hY', hstep⟩
    · rw [noFlush n hn' (by omega)] at hfl; exact absurd hfl Bool.false_ne_true
    · have hs : (Y : Vec F S10000x8 .f32) j = if 25 ≤ n ∧ 400 * (n % 25) ≤ (j 0).val ∧ (j 0).val < 400 * (n % 25) + 400 then res m c j else (Y' : Vec F S10000x8 .f32) j :=
        (after6 m c ⟨n, hn'⟩ Y' Y).mp hstep j
      rw [hs]
      by_cases hc : 25 ≤ n ∧ 400 * (n % 25) ≤ (j 0).val ∧ (j 0).val < 400 * (n % 25) + 400
      · rw [if_pos hc]
      · rw [if_neg hc]
        have h25' : 25 ≤ n := by
          by_contra hlt
          have : n = 24 := by omega
          subst this
          omega
        have hmod : n % 25 = n - 25 := by omega
        exact finds_rows c n hn' Y' hY' j h25' (by rw [hmod] at hc; omega)

/-- What the last point leaves in the result's staging buffer is the whole result. -/
theorem leaves_last (c : Dev nD) (hn : 49 < cfg0.N) (X : (cfg0.win 6).block.Idx → Elt F (cfg0.win 6).elt)
    (h : (rd m c).Leaves 6 ⟨49, hn⟩ X) : (X : Vec F S10000x8 .f32) = res m c := by
  obtain ⟨Y, hY, hstep⟩ := h
  funext j
  have hs : (X : Vec F S10000x8 .f32) j = if 25 ≤ 49 ∧ 400 * (49 % 25) ≤ (j 0).val ∧ (j 0).val < 400 * (49 % 25) + 400 then res m c j else (Y : Vec F S10000x8 .f32) j :=
    (after6 m c ⟨49, hn⟩ Y X).mp hstep j
  rw [hs]
  by_cases hc : 25 ≤ 49 ∧ 400 * (49 % 25) ≤ (j 0).val ∧ (j 0).val < 400 * (49 % 25) + 400
  · rw [if_pos hc]
  · rw [if_neg hc]
    have := idx2_lt0 j
    exact finds_rows m c 49 hn Y hY j (by decide) (by omega)

/-- After every write-back the result array holds the result. -/
theorem final_out (c : Dev nD) (G : Buf (Elt F) ((cfg0.win 6).arr.view.loc (c.tc : Thread nD τ)))
    (h : (rd m c).ArrAt 6 cfg0.N G) : (G : Vec F S10000x8 .f32) = res m c := by
  have hlt : 49 < cfg0.N := by rw [N50]; decide
  obtain ⟨X, hX, hr⟩ := (rd m c).read_last 6 49 hlt N50 (fun k hk hk49 => noFlush k hk hk49)
    ((flush0_6 ⟨49, hlt⟩).mpr rfl) G h
  have hXr := leaves_last m c hlt X hX
  funext j
  have hj := congrFun hr j
  rw [View.read_apply] at hj
  refine Eq.trans ?_ (hj.trans (congrFun hXr j))
  congr 1
  funext a
  apply Fin.ext
  match a with
  | ⟨0, _⟩ => show (j 0).val = 0 * 10000 + 1 * (j 0).val; omega
  | ⟨1, _⟩ => show (j 1).val = 0 * 8 + 1 * (j 1).val; omega

/-- THE RUN WITH ITS RESULT: every execution terminates, the result array at the closed form and
    the six argument arrays unchanged. -/
theorem run_value : θ_run defs (onTc (τ := τ) (main (F := F))) ⟨m, fun _ => 0, ρ⟩ (fun r => ∀ c : Dev nD,
      r.2.mem ((c.tc : Thread nD τ).loc main_v0) = (res m c : Vec F S10000x8 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨final_out m c _ ((h c).1 6),
      (Pipeline.RDat.FramePost.arr_in h c 1 rfl).trans ((rd_A m c 1).trans (V_main_arg0 m c)),
      (Pipeline.RDat.FramePost.arr_in h c 0 rfl).trans ((rd_A m c 0).trans (V_main_arg1 m c)),
      (Pipeline.RDat.FramePost.arr_in h c 2 rfl).trans ((rd_A m c 2).trans (V_main_arg2 m c)),
      ((h c).2 main_arg3 (Pipeline.mem_restRefs_of main_arg3 (by decide) (by decide))).trans (V_main_arg3 m c),
      (Pipeline.RDat.FramePost.arr_in h c 4 rfl).trans ((rd_A m c 4).trans (V_main_arg4 m c)),
      ((h c).2 main_arg5 (Pipeline.mem_restRefs_of main_arg5 (by decide) (by decide))).trans (V_main_arg5 m c)⟩) (run_main m ρ)

/-- The frame: every execution terminates and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.KernelIdeal.Hand

end
-- ==== Proof.Ideal.Products.lean ====
/- The kernel's three closed forms are the reference's stages, over the extended reals. A matrix
   product into a zero accumulator is, at an index, the sum over the contracted axis of products of
   the operands' entries, for the kernel's product as for the reference's; a change of float format
   is the identity; the bias is added entry by entry; the rectifier is the maximum with zero. So
   support1 is x·W1; row r of support2 is relu(adj[r,:]·support1 + b1)·W2, because row r % 400 of
   panel r / 400 is row r of adj; and row r of the result is adj[r,:]·support2 + b2 for the same
   reason. No law of the extended reals beyond the two sides' common form is used, so finiteness
   of the inputs is not needed. -/
import proofs.«170562_g43207370998079_cont_8to1_b_1494_6_alg».proof.Proof.Ideal.Spec
import proofs.«170562_g43207370998079_cont_8to1_b_1494_6_alg».proof.Proof.Gen.ReferenceIdeal.Read
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## The kernel's four matrix products at an index -/

theorem lhs_a_0 (i : S10000x16.Idx) (q : dot_S10000x128_S128x16_S10000x16_1_0_0_1_n_n.contr.Idx) : (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_a_1 (i : S10000x16.Idx) (q : dot_S10000x128_S128x16_S10000x16_1_0_0_1_n_n.contr.Idx) : (dot_S10000x128_S128x16_S10000x16_1_0_0_1_n_n.lhsIdx i q 1).val = (q ⟨0, by decide⟩).val :=
  dot_S10000x128_S128x16_S10000x16_1_0_0_1_n_n.lhsIdx_val_of_single rfl i q
theorem rhs_a_0 (i : S10000x16.Idx) (q : dot_S10000x128_S128x16_S10000x16_1_0_0_1_n_n.contr.Idx) : (dot_S10000x128_S128x16_S10000x16_1_0_0_1_n_n.rhsIdx i q 0).val = (q ⟨0, by decide⟩).val :=
  dot_S10000x128_S128x16_S10000x16_1_0_0_1_n_n.rhsIdx_val_of_single rfl i q
theorem rhs_a_1 (i : S10000x16.Idx) (q : dot_S10000x128_S128x16_S10000x16_1_0_0_1_n_n.contr.Idx) : (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl
/-- The left operand's index for result index `i` and contracted position `k`: (row of i, k). -/
abbrev l_a (i : S10000x16.Idx) (k : Fin 128) : S10000x128.Idx := fun a => match a with
  | ⟨0, _⟩ => ⟨(i 0).val, (i 0).isLt⟩
  | ⟨1, _⟩ => ⟨k.val, k.isLt⟩
/-- The right operand's: (k, column of i). -/
abbrev r_a (i : S10000x16.Idx) (k : Fin 128) : S128x16.Idx := fun a => match a with
  | ⟨0, _⟩ => ⟨k.val, k.isLt⟩
  | ⟨1, _⟩ => ⟨(i 1).val, (i 1).isLt⟩
/-- The product into a zero accumulator, at an index, is the sum over the contracted positions. -/
theorem mm_a {φ₁ φ₂ : FTy} (l : FVec Ideal S10000x128 φ₁) (r : FVec Ideal S128x16 φ₂) (i : S10000x16.Idx) :
    matmul dot_S10000x128_S128x16_S10000x16_1_0_0_1_n_n none l r (constant S10000x16 .f32 0x00000000#32) i = ∑ k : Fin 128, l (l_a i k) * r (r_a i k) := by
  refine (Ideal.matmul_constant_zero_apply dot_S10000x128_S128x16_S10000x16_1_0_0_1_n_n none l r i).trans ?_
  rw [← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx i ((ValueIdx.contrEquiv1 dot_S10000x128_S128x16_S10000x16_1_0_0_1_n_n 128 rfl rfl).symm k) = l_a i k := funext fun a => Fin.ext (by
    match a with
    | ⟨0, _⟩ => exact lhs_a_0 _ _
    | ⟨1, _⟩ => exact (lhs_a_1 _ _).trans hk)
  have er : dot_S10000x128_S128x16_S10000x16_1_0_0_1_n_n.rhsIdx i ((ValueIdx.contrEquiv1 dot_S10000x128_S128x16_S10000x16_1_0_0_1_n_n 128 rfl rfl).symm k) = r_a i k := funext fun a => Fin.ext (by
    match a with
    | ⟨0, _⟩ => exact (rhs_a_0 _ _).trans hk
    | ⟨1, _⟩ => exact rhs_a_1 _ _)
  rw [el, er]

theorem lhs_b_0 (i : S400x16.Idx) (q : dot_S400x10000_S10000x16_S400x16_1_0_0_1_n_n.contr.Idx) : (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_b_1 (i : S400x16.Idx) (q : dot_S400x10000_S10000x16_S400x16_1_0_0_1_n_n.contr.Idx) : (dot_S400x10000_S10000x16_S400x16_1_0_0_1_n_n.lhsIdx i q 1).val = (q ⟨0, by decide⟩).val :=
  dot_S400x10000_S10000x16_S400x16_1_0_0_1_n_n.lhsIdx_val_of_single rfl i q
theorem rhs_b_0 (i : S400x16.Idx) (q : dot_S400x10000_S10000x16_S400x16_1_0_0_1_n_n.contr.Idx) : (dot_S400x10000_S10000x16_S400x16_1_0_0_1_n_n.rhsIdx i q 0).val = (q ⟨0, by decide⟩).val :=
  dot_S400x10000_S10000x16_S400x16_1_0_0_1_n_n.rhsIdx_val_of_single rfl i q
theorem rhs_b_1 (i : S400x16.Idx) (q : dot_S400x10000_S10000x16_S400x16_1_0_0_1_n_n.contr.Idx) : (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl
/-- The left operand's index for result index `i` and contracted position `k`: (row of i, k). -/
abbrev l_b (i : S400x16.Idx) (k : Fin 10000) : S400x10000.Idx := fun a => match a with
  | ⟨0, _⟩ => ⟨(i 0).val, (i 0).isLt⟩
  | ⟨1, _⟩ => ⟨k.val, k.isLt⟩
/-- The right operand's: (k, column of i). -/
abbrev r_b (i : S400x16.Idx) (k : Fin 10000) : S10000x16.Idx := fun a => match a with
  | ⟨0, _⟩ => ⟨k.val, k.isLt⟩
  | ⟨1, _⟩ => ⟨(i 1).val, (i 1).isLt⟩
/-- The product into a zero accumulator, at an index, is the sum over the contracted positions. -/
theorem mm_b {φ₁ φ₂ : FTy} (l : FVec Ideal S400x10000 φ₁) (r : FVec Ideal S10000x16 φ₂) (i : S400x16.Idx) :
    matmul dot_S400x10000_S10000x16_S400x16_1_0_0_1_n_n none l r (constant S400x16 .f32 0x00000000#32) i = ∑ k : Fin 10000, l (l_b i k) * r (r_b i k) := by
  refine (Ideal.matmul_constant_zero_apply dot_S400x10000_S10000x16_S400x16_1_0_0_1_n_n none l r i).trans ?_
  rw [← Equiv.sum_comp (ValueIdx.contrEquiv1 dot_S400x10000_S10000x16_S400x16_1_0_0_1_n_n 10000 rfl rfl).symm]
  refine Finset.sum_congr rfl fun k _ => ?_
  have hk := ValueIdx.contrEquiv1_symm_val dot_S400x10000_S10000x16_S400x16_1_0_0_1_n_n 10000 rfl rfl k
  have el : dot_S400x10000_S10000x16_S400x16_1_0_0_1_n_n.lhsIdx i ((ValueIdx.contrEquiv1 dot_S400x10000_S10000x16_S400x16_1_0_0_1_n_n 10000 rfl rfl).symm k) = l_b i k := funext fun a => Fin.ext (by
    match a with
    | ⟨0, _⟩ => exact lhs_b_0 _ _
    | ⟨1, _⟩ => exact (lhs_b_1 _ _).trans hk)
  have er : dot_S400x10000_S10000x16_S400x16_1_0_0_1_n_n.rhsIdx i ((ValueIdx.contrEquiv1 dot_S400x10000_S10000x16_S400x16_1_0_0_1_n_n 10000 rfl rfl).symm k) = r_b i k := funext fun a => Fin.ext (by
    match a with
    | ⟨0, _⟩ => exact (rhs_b_0 _ _).trans hk
    | ⟨1, _⟩ => exact rhs_b_1 _ _)
  rw [el, er]

theorem lhs_c_0 (i : S400x8.Idx) (q : dot_S400x16_S16x8_S400x8_1_0_0_1_n_n.contr.Idx) : (dot_S400x16_S16x8_S400x8_1_0_0_1_n_n.lhsIdx i q 0).val = (i 0).val := by
  unfold DotDims.lhsIdx
  rw [dif_neg (show ¬(0 : Fin S400x16.rank) ∈ dot_S400x16_S16x8_S400x8_1_0_0_1_n_n.lhsBatch by decide), dif_pos (show (0 : Fin S400x16.rank) ∈ dot_S400x16_S16x8_S400x8_1_0_0_1_n_n.lhsNonContracting by decide)]
  rfl
theorem lhs_c_1 (i : S400x8.Idx) (q : dot_S400x16_S16x8_S400x8_1_0_0_1_n_n.contr.Idx) : (dot_S400x16_S16x8_S400x8_1_0_0_1_n_n.lhsIdx i q 1).val = (q ⟨0, by decide⟩).val :=
  dot_S400x16_S16x8_S400x8_1_0_0_1_n_n.lhsIdx_val_of_single rfl i q
theorem rhs_c_0 (i : S400x8.Idx) (q : dot_S400x16_S16x8_S400x8_1_0_0_1_n_n.contr.Idx) : (dot_S400x16_S16x8_S400x8_1_0_0_1_n_n.rhsIdx i q 0).val = (q ⟨0, by decide⟩).val :=
  dot_S400x16_S16x8_S400x8_1_0_0_1_n_n.rhsIdx_val_of_single rfl i q
theorem rhs_c_1 (i : S400x8.Idx) (q : dot_S400x16_S16x8_S400x8_1_0_0_1_n_n.contr.Idx) : (dot_S400x16_S16x8_S400x8_1_0_0_1_n_n.rhsIdx i q 1).val = (i 1).val := by
  unfold DotDims.rhsIdx
  rw [dif_neg (show ¬(1 : Fin S16x8.rank) ∈ dot_S400x16_S16x8_S400x8_1_0_0_1_n_n.rhsBatch by decide), dif_pos (show (1 : Fin S16x8.rank) ∈ dot_S400x16_S16x8_S400x8_1_0_0_1_n_n.rhsNonContracting by decide)]
  rfl
/-- The left operand's index for result index `i` and contracted position `k`: (row of i, k). -/
abbrev l_c (i : S400x8.Idx) (k : Fin 16) : S400x16.Idx := fun a => match a with
  | ⟨0, _⟩ => ⟨(i 0).val, (i 0).isLt⟩
  | ⟨1, _⟩ => ⟨k.val, k.isLt⟩
/-- The right operand's: (k, column of i). -/
abbrev r_c (i : S400x8.Idx) (k : Fin 16) : S16x8.Idx := fun a => match a with
  | ⟨0, _⟩ => ⟨k.val, k.isLt⟩
  | ⟨1, _⟩ => ⟨(i 1).val, (i 1).isLt⟩
/-- The product into a zero accumulator, at an index, is the sum over the contracted positions. -/
theorem mm_c {φ₁ φ₂ : FTy} (l : FVec Ideal S400x16 φ₁) (r : FVec Ideal S16x8 φ₂) (i : S400x8.Idx) :
    matmul dot_S400x16_S16x8_S400x8_1_0_0_1_n_n none l r (constant S400x8 .f32 0x00000000#32) i = ∑ k : Fin 16, l (l_c i k) * r (r_c i k) := by
  refine (Ideal.matmul_constant_zero_apply dot_S400x16_S16x8_S400x8_1_0_0_1_n_n none l r i).trans ?_
  rw [← Equiv.sum_comp (ValueIdx.contrEquiv1 dot_S400x16_S16x8_S400x8_1_0_0_1_n_n 16 rfl rfl).symm]
  refine Finset.sum_congr rfl fun k _ => ?_
  have hk := ValueIdx.contrEquiv1_symm_val dot_S400x16_S16x8_S400x8_1_0_0_1_n_n 16 rfl rfl k
  have el : dot_S400x16_S16x8_S400x8_1_0_0_1_n_n.lhsIdx i ((ValueIdx.contrEquiv1 dot_S400x16_S16x8_S400x8_1_0_0_1_n_n 16 rfl rfl).symm k) = l_c i k := funext fun a => Fin.ext (by
    match a with
    | ⟨0, _⟩ => exact lhs_c_0 _ _
    | ⟨1, _⟩ => exact (lhs_c_1 _ _).trans hk)
  have er : dot_S400x16_S16x8_S400x8_1_0_0_1_n_n.rhsIdx i ((ValueIdx.contrEquiv1 dot_S400x16_S16x8_S400x8_1_0_0_1_n_n 16 rfl rfl).symm k) = r_c i k := funext fun a => Fin.ext (by
    match a with
    | ⟨0, _⟩ => exact (rhs_c_0 _ _).trans hk
    | ⟨1, _⟩ => exact rhs_c_1 _ _)
  rw [el, er]

theorem lhs_d_0 (i : S400x8.Idx) (q : dot_S400x10000_S10000x8_S400x8_1_0_0_1_n_n.contr.Idx) : (dot_S400x10000_S10000x8_S400x8_1_0_0_1_n_n.lhsIdx i q 0).val = (i 0).val := by
  unfold DotDims.lhsIdx
  rw [dif_neg (show ¬(0 : Fin S400x10000.rank) ∈ dot_S400x10000_S10000x8_S400x8_1_0_0_1_n_n.lhsBatch by decide), dif_pos (show (0 : Fin S400x10000.rank) ∈ dot_S400x10000_S10000x8_S400x8_1_0_0_1_n_n.lhsNonContracting by decide)]
  rfl
theorem lhs_d_1 (i : S400x8.Idx) (q : dot_S400x10000_S10000x8_S400x8_1_0_0_1_n_n.contr.Idx) : (dot_S400x10000_S10000x8_S400x8_1_0_0_1_n_n.lhsIdx i q 1).val = (q ⟨0, by decide⟩).val :=
  dot_S400x10000_S10000x8_S400x8_1_0_0_1_n_n.lhsIdx_val_of_single rfl i q
theorem rhs_d_0 (i : S400x8.Idx) (q : dot_S400x10000_S10000x8_S400x8_1_0_0_1_n_n.contr.Idx) : (dot_S400x10000_S10000x8_S400x8_1_0_0_1_n_n.rhsIdx i q 0).val = (q ⟨0, by decide⟩).val :=
  dot_S400x10000_S10000x8_S400x8_1_0_0_1_n_n.rhsIdx_val_of_single rfl i q
theorem rhs_d_1 (i : S400x8.Idx) (q : dot_S400x10000_S10000x8_S400x8_1_0_0_1_n_n.contr.Idx) : (dot_S400x10000_S10000x8_S400x8_1_0_0_1_n_n.rhsIdx i q 1).val = (i 1).val := by
  unfold DotDims.rhsIdx
  rw [dif_neg (show ¬(1 : Fin S10000x8.rank) ∈ dot_S400x10000_S10000x8_S400x8_1_0_0_1_n_n.rhsBatch by decide), dif_pos (show (1 : Fin S10000x8.rank) ∈ dot_S400x10000_S10000x8_S400x8_1_0_0_1_n_n.rhsNonContracting by decide)]
  rfl
/-- The left operand's index for result index `i` and contracted position `k`: (row of i, k). -/
abbrev l_d (i : S400x8.Idx) (k : Fin 10000) : S400x10000.Idx := fun a => match a with
  | ⟨0, _⟩ => ⟨(i 0).val, (i 0).isLt⟩
  | ⟨1, _⟩ => ⟨k.val, k.isLt⟩
/-- The right operand's: (k, column of i). -/
abbrev r_d (i : S400x8.Idx) (k : Fin 10000) : S10000x8.Idx := fun a => match a with
  | ⟨0, _⟩ => ⟨k.val, k.isLt⟩
  | ⟨1, _⟩ => ⟨(i 1).val, (i 1).isLt⟩
/-- The product into a zero accumulator, at an index, is the sum over the contracted positions. -/
theorem mm_d {φ₁ φ₂ : FTy} (l : FVec Ideal S400x10000 φ₁) (r : FVec Ideal S10000x8 φ₂) (i : S400x8.Idx) :
    matmul dot_S400x10000_S10000x8_S400x8_1_0_0_1_n_n none l r (constant S400x8 .f32 0x00000000#32) i = ∑ k : Fin 10000, l (l_d i k) * r (r_d i k) := by
  refine (Ideal.matmul_constant_zero_apply dot_S400x10000_S10000x8_S400x8_1_0_0_1_n_n none l r i).trans ?_
  rw [← Equiv.sum_comp (ValueIdx.contrEquiv1 dot_S400x10000_S10000x8_S400x8_1_0_0_1_n_n 10000 rfl rfl).symm]
  refine Finset.sum_congr rfl fun k _ => ?_
  have hk := ValueIdx.contrEquiv1_symm_val dot_S400x10000_S10000x8_S400x8_1_0_0_1_n_n 10000 rfl rfl k
  have el : dot_S400x10000_S10000x8_S400x8_1_0_0_1_n_n.lhsIdx i ((ValueIdx.contrEquiv1 dot_S400x10000_S10000x8_S400x8_1_0_0_1_n_n 10000 rfl rfl).symm k) = l_d i k := funext fun a => Fin.ext (by
    match a with
    | ⟨0, _⟩ => exact lhs_d_0 _ _
    | ⟨1, _⟩ => exact (lhs_d_1 _ _).trans hk)
  have er : dot_S400x10000_S10000x8_S400x8_1_0_0_1_n_n.rhsIdx i ((ValueIdx.contrEquiv1 dot_S400x10000_S10000x8_S400x8_1_0_0_1_n_n 10000 rfl rfl).symm k) = r_d i k := funext fun a => Fin.ext (by
    match a with
    | ⟨0, _⟩ => exact (rhs_d_0 _ _).trans hk
    | ⟨1, _⟩ => exact rhs_d_1 _ _)
  rw [el, er]

/-! ## The bias rows broadcast over a panel -/

abbrev bRow16 (i : S400x16.Idx) : S1x16.Idx := fun a => match a with
  | ⟨0, _⟩ => ⟨0, Nat.one_pos⟩
  | ⟨1, _⟩ => ⟨(i 1).val, (i 1).isLt⟩
abbrev bRow8 (i : S400x8.Idx) : S1x8.Idx := fun a => match a with
  | ⟨0, _⟩ => ⟨0, Nat.one_pos⟩
  | ⟨1, _⟩ => ⟨(i 1).val, (i 1).isLt⟩

theorem bcast16 (b : Vec Ideal S1x16 .f32) (hs : S1x16.ShapeCasts S1x16) (hb : S1x16.Broadcasts S400x16) (i : S400x16.Idx) :
    broadcastTo S400x16 (shapeCast S1x16 b hs) hb i = b (bRow16 i) := by
  rw [shapeCast_self]
  exact broadcastTo_apply b hb i (bRow16 i) (fun a => match a with
    | ⟨0, _⟩ => by show 0 = if (1 : ℕ) = 1 then 0 else (i 0).val; rw [if_pos rfl]
    | ⟨1, _⟩ => by show (i 1).val = if (16 : ℕ) = 1 then 0 else (i 1).val; rw [if_neg (by decide)])

theorem bcast8 (b : Vec Ideal S1x8 .f32) (hs : S1x8.ShapeCasts S1x8) (hb : S1x8.Broadcasts S400x8) (i : S400x8.Idx) :
    broadcastTo S400x8 (shapeCast S1x8 b hs) hb i = b (bRow8 i) := by
  rw [shapeCast_self]
  exact broadcastTo_apply b hb i (bRow8 i) (fun a => match a with
    | ⟨0, _⟩ => by show 0 = if (1 : ℕ) = 1 then 0 else (i 0).val; rw [if_pos rfl]
    | ⟨1, _⟩ => by show (i 1).val = if (8 : ℕ) = 1 then 0 else (i 1).val; rw [if_neg (by decide)])

/-! ## The three payloads at an index -/

theorem pay2_apply (x : Vec Ideal S10000x128 .f32) (W1 : Vec Ideal S128x16 .f32) (i : S10000x16.Idx) :
    k0_pay2 x W1 i = ∑ k : Fin 128, x (l_a i k) * W1 (r_a i k) := by
  unfold k0_pay2
  rw [shapeCast_self]
  exact mm_a (φ₁ := .f32) (φ₂ := .f32) x W1 i

theorem pay3_apply (P : Vec Ideal S400x10000 .f32) (S1 : Vec Ideal S10000x16 .bf16) (b1r : Vec Ideal S1x16 .f32)
    (W2 : Vec Ideal S16x8 .f32) (y : S400x8.Idx) :
    k0_pay3 P S1 b1r W2 y
      = ∑ h : Fin 16, max ((∑ n : Fin 10000, P (l_b (l_c y h) n) * S1 (r_b (l_c y h) n)) + b1r (bRow16 (l_c y h)))
          (Ideal.ofBits .f32 0x00000000#32) * W2 (r_c y h) := by
  unfold k0_pay3 k0_pay1
  rw [shapeCast_self]
  refine (mm_c (φ₁ := .f32) (φ₂ := .f32) _ W2 y).trans ?_
  refine Finset.sum_congr rfl fun h _ => ?_
  congr 1
  show max (_ + _) _ = max (_ + _) _
  congr 1
  congr 1
  · exact mm_b (φ₁ := .bf16) (φ₂ := .bf16) _ S1 (l_c y h)
  · exact bcast16 b1r _ _ (l_c y h)

theorem pay4_apply (P : Vec Ideal S400x10000 .f32) (S2 : Vec Ideal S10000x8 .bf16) (b2r : Vec Ideal S1x8 .f32) (y : S400x8.Idx) :
    k0_pay4 P S2 b2r y = (∑ n : Fin 10000, P (l_d y n) * S2 (r_d y n)) + b2r (bRow8 y) := by
  unfold k0_pay4 k0_pay1
  show _ + _ = _ + _
  congr 1
  · exact mm_d (φ₁ := .bf16) (φ₂ := .bf16) _ S2 y
  · exact bcast8 b2r _ _ y

end Cert.KernelIdeal.Hand

end
-- ==== Proof.Ideal.Bridge.lean ====
/- The three closed forms against the reference's stages. The reference computes
   v0 = x·W1, v1 = adj·v0, v4 = v1 + b1, v5 = max(v4, 0), v6 = v5·W2, v7 = adj·v6, v10 = v7 + b2,
   each read at an index as a plain sum. The first support is v0; row r of the second support is
   row r of v6, since row r % 400 of panel r / 400 of adj is row r of adj; and row r of the result
   is row r of v10 for the same reason. The bias rows b1, b2 reach the kernel reshaped to one row. -/
import proofs.«170562_g43207370998079_cont_8to1_b_1494_6_alg».proof.Proof.Ideal.Products

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The first support is the reference's x·W1. -/
theorem support1_eq (x : Vec Ideal S10000x128 .f32) (W1 : Vec Ideal S128x16 .f32) :
    support1 x W1 = Cert.ReferenceIdeal.Read.val_main_v0 (F := Ideal) x W1 := by
  funext i
  unfold support1
  rw [pay2_apply, Cert.ReferenceIdeal.Read.val_main_v0_apply]
  rfl

/-- Row by row, the second support is the reference's relu(adj·(x·W1) + b1)·W2. -/
theorem support2_eq (adj : Vec Ideal S10000x10000 .f32) (x : Vec Ideal S10000x128 .f32) (W1 : Vec Ideal S128x16 .f32)
    (b1r : Vec Ideal S1x16 .f32) (W2 : Vec Ideal S16x8 .f32) (b1 : Vec Ideal S16 .f32)
    (hb1 : ∀ y : S1x16.Idx, b1r y = b1 (Cert.ReferenceIdeal.Read.idx_main_v2 y)) (i : S10000x8.Idx) :
    support2 adj x W1 b1r W2 i = Cert.ReferenceIdeal.Read.val_main_v6 (F := Ideal) x adj W1 b1 W2 i := by
  unfold support2
  rw [pay3_apply, Cert.ReferenceIdeal.Read.val_main_v6_apply]
  refine Finset.sum_congr rfl fun h _ => ?_
  have eW : r_c (ix2 (inPanel (i 0)) (i 1)) h = Cert.ReferenceIdeal.Read.ridx_main_v6 i h := funext fun a => Fin.ext (by
    match a with
    | ⟨0, _⟩ => rfl
    | ⟨1, _⟩ => rfl)
  rw [eW]
  congr 1
  rw [Cert.ReferenceIdeal.Read.val_main_v5_apply, Cert.ReferenceIdeal.Read.val_main_v4_apply, Cert.ReferenceIdeal.Read.val_main_v1_apply, Cert.ReferenceIdeal.Read.val_main_v3_apply, Cert.ReferenceIdeal.Read.val_main_v2_apply,
    Cert.ReferenceIdeal.Read.val_main_call0_v0_apply, Cert.ReferenceIdeal.Read.val_main_call0_cst_apply]
  show max (_ + _) _ = max (_ + _) _
  congr 1
  congr 1
  · refine Finset.sum_congr rfl fun n _ => ?_
    rw [support1_eq]
    congr 1
    · unfold panel
      refine congrArg adj (funext fun a => Fin.ext (by
        match a with
        | ⟨0, _⟩ => show 400 * ((i 0).val / 400) + (i 0).val % 400 = (i 0).val; exact Nat.div_add_mod _ _
        | ⟨1, _⟩ => rfl))
  · rw [hb1]

/-- The result is the reference's adj·(relu(adj·(x·W1) + b1)·W2) + b2. -/
theorem result_eq (adj : Vec Ideal S10000x10000 .f32) (x : Vec Ideal S10000x128 .f32) (W1 : Vec Ideal S128x16 .f32)
    (b1r : Vec Ideal S1x16 .f32) (W2 : Vec Ideal S16x8 .f32) (b2r : Vec Ideal S1x8 .f32) (b1 : Vec Ideal S16 .f32) (b2 : Vec Ideal S8 .f32)
    (hb1 : ∀ y : S1x16.Idx, b1r y = b1 (Cert.ReferenceIdeal.Read.idx_main_v2 y)) (hb2 : ∀ y : S1x8.Idx, b2r y = b2 (Cert.ReferenceIdeal.Read.idx_main_v8 y)) :
    result adj x W1 b1r W2 b2r = Cert.ReferenceIdeal.Read.val_main_v10 (F := Ideal) x adj W1 b1 W2 b2 := by
  funext i
  unfold result
  rw [pay4_apply, Cert.ReferenceIdeal.Read.val_main_v10_apply, Cert.ReferenceIdeal.Read.val_main_v7_apply, Cert.ReferenceIdeal.Read.val_main_v9_apply, Cert.ReferenceIdeal.Read.val_main_v8_apply]
  show _ + _ = _ + _
  congr 1
  · refine Finset.sum_congr rfl fun n _ => ?_
    congr 1
    · unfold panel
      refine congrArg adj (funext fun a => Fin.ext (by
        match a with
        | ⟨0, _⟩ => show 400 * ((i 0).val / 400) + (i 0).val % 400 = (i 0).val; exact Nat.div_add_mod _ _
        | ⟨1, _⟩ => rfl))
    · rw [support2_eq adj x W1 b1r W2 b1 hb1]
      refine congrArg (Cert.ReferenceIdeal.Read.val_main_v6 (F := Ideal) x adj W1 b1 W2) (funext fun a => Fin.ext (by
        match a with
        | ⟨0, _⟩ => rfl
        | ⟨1, _⟩ => rfl))
  · rw [hb2]

end Cert.KernelIdeal.Hand

end
-- ==== Proof.Ideal.Claim.lean ====
/- The kernel's result array, as a function of the launch contents of the six argument arrays, is the
   reference's last stage of the same contents. The four matrices reach the kernel as launched; the
   two bias vectors reach it reshaped to one row, entry (0, k) of the row being entry k of the
   vector. -/
import proofs.«170562_g43207370998079_cont_8to1_b_1494_6_alg».proof.Proof.Ideal.Bridge
import proofs.«170562_g43207370998079_cont_8to1_b_1494_6_alg».proof.Proof.Ideal.Data
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

theorem b1A_apply (c : Dev nD) (y : S1x16.Idx) :
    b1A m c y = (m ((c.tc : Thread nD τ).loc main_arg3) : Vec Ideal S16 .f32) (Cert.ReferenceIdeal.Read.idx_main_v2 y) := by
  have e : b1A m c = shapeCast S1x16 (m ((c.tc : Thread nD τ).loc main_arg3) : Vec Ideal S16 .f32) shapeCasts_S16_S1x16 := by
    unfold b1A; dsimp only [V, hostOps0]; after_results; rfl
  rw [e]
  refine shapeCast_apply _ _ y _ ?_
  show ((⟨1, ![16]⟩ : Shape).rowMajor (Cert.ReferenceIdeal.Read.idx_main_v2 y)).val = ((⟨2, ![1, 16]⟩ : Shape).rowMajor y).val
  rw [Shape.rowMajor_val_one, Shape.rowMajor_val_two]
  show (y 1).val = (y 0).val * 16 + (y 1).val
  have : (y 0).val < 1 := (y 0).isLt
  omega

theorem b2A_apply (c : Dev nD) (y : S1x8.Idx) :
    b2A m c y = (m ((c.tc : Thread nD τ).loc main_arg5) : Vec Ideal S8 .f32) (Cert.ReferenceIdeal.Read.idx_main_v8 y) := by
  have e : b2A m c = shapeCast S1x8 (m ((c.tc : Thread nD τ).loc main_arg5) : Vec Ideal S8 .f32) shapeCasts_S8_S1x8 := by
    unfold b2A; dsimp only [V, hostOps0]; after_results; rfl
  rw [e]
  refine shapeCast_apply _ _ y _ ?_
  show ((⟨1, ![8]⟩ : Shape).rowMajor (Cert.ReferenceIdeal.Read.idx_main_v8 y)).val = ((⟨2, ![1, 8]⟩ : Shape).rowMajor y).val
  rw [Shape.rowMajor_val_one, Shape.rowMajor_val_two]
  show (y 1).val = (y 0).val * 8 + (y 1).val
  have : (y 0).val < 1 := (y 0).isLt
  omega

/-- The kernel's result is the reference's last stage of the launch contents. -/
theorem res_eq_ref (c : Dev nD) :
    res m c = Cert.ReferenceIdeal.Read.val_main_v10 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold res
  rw [show adjA m c = m ((c.tc : Thread nD τ).loc main_arg1) from V_main_arg1 m c,
    show xA m c = m ((c.tc : Thread nD τ).loc main_arg0) from V_main_arg0 m c,
    show w1A m c = m ((c.tc : Thread nD τ).loc main_arg2) from V_main_arg2 m c,
    show w2A m c = m ((c.tc : Thread nD τ).loc main_arg4) from V_main_arg4 m c]
  exact result_eq _ _ _ (b1A m c) _ (b2A m c) _ _ (b1A_apply m c) (b2A_apply m c)

end Cert.KernelIdeal.Hand

end
-- ==== Proof.lean ====
/- The certificate of a fused two-layer graph convolution
     out = adj · (relu(adj · (x · W1) + b1) · W2) + b2
   computed by one pipelined kernel over 50 grid points (25 row panels of adj, visited twice) against
   the same formula computed by whole-array matrix products.

   The kernel keeps the first layer's support x·W1 and the second layer's support in two scratch
   buffers, and forms the result 400 rows at a time in a whole-array staging buffer that is written
   back once, after the last point. Its run is proved for any float instance: the invariant between
   points says what the scratch buffers hold, a relation says how each point changes the result's
   buffer, and an induction over the points shows the buffer holds the whole result at the end
   (Proof/Ideal/*; the word-level program's copy is Proof/Bits/*). Over the extended reals the
   result's closed form is the reference's, sum for sum (Proof/Ideal/Products, Bridge, Claim): a
   format change is the identity and a panel's row is the matrix's row. The ideal pass rewrote
   nothing, so the kernel is its own idealization. -/
import proofs.«170562_g43207370998079_cont_8to1_b_1494_6_alg».proof.Defs
import proofs.«170562_g43207370998079_cont_8to1_b_1494_6_alg».proof.Proof.Gen.Kernel
import proofs.«170562_g43207370998079_cont_8to1_b_1494_6_alg».proof.Proof.Gen.KernelIdeal
import proofs.«170562_g43207370998079_cont_8to1_b_1494_6_alg».proof.Proof.Gen.ReferenceIdeal
import proofs.«170562_g43207370998079_cont_8to1_b_1494_6_alg».proof.Proof.Gen.Pre_finite_inputs
import proofs.«170562_g43207370998079_cont_8to1_b_1494_6_alg».proof.Proof.Gen.ReferenceIdeal.Run
import proofs.«170562_g43207370998079_cont_8to1_b_1494_6_alg».proof.Proof.Gen.ReferenceIdeal.Read
import proofs.«170562_g43207370998079_cont_8to1_b_1494_6_alg».proof.Proof.Bits.Final
import proofs.«170562_g43207370998079_cont_8to1_b_1494_6_alg».proof.Proof.Ideal.Final
import proofs.«170562_g43207370998079_cont_8to1_b_1494_6_alg».proof.Proof.Ideal.Claim
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at one function of the argument arrays. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  rw [Cert.ReferenceIdeal.Read.val_main_v10_eq]
  exact (Cert.KernelIdeal.Hand.res_eq_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
